-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 255#32
  let main_v4 : IVec S8x512x512 32 := broadcastInDim S8x512x512 ![] bcast_S_S8x512x512 main_c_0
  let main_v5 : IVec S8x512x512 1 := cmpi .eq main_arg1 main_v4
  let main_c_1 : IVec S_ 32 := constantI S_ 32 0#32
  let main_v6 : IVec S8x512x512 32 := broadcastInDim S8x512x512 ![] bcast_S_S8x512x512 main_c_1
  let main_v7 : IVec S8x512x512 1 := cmpi .sge main_arg1 main_v6
  let main_c_2 : IVec S_ 32 := constantI S_ 32 21#32
  let main_v8 : IVec S8x512x512 32 := broadcastInDim S8x512x512 ![] bcast_S_S8x512x512 main_c_2
  let main_v9 : IVec S8x512x512 1 := cmpi .slt main_arg1 main_v8
  let main_v10 : IVec S8x512x512 1 := andi main_v7 main_v9
  let main_v11 : IVec S8x512x512 1 := ori main_v5 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v3 main_v12
  main_v13
-- ==== Kernel.lean ====
abbrev S8x21x512x512 : Shape := ⟨4, ![8, 21, 512, 512]⟩
abbrev S8x512x512 : Shape := ⟨3, ![8, 512, 512]⟩
abbrev S8x8x128 : Shape := ⟨3, ![8, 8, 128]⟩
abbrev S1x21x64x512 : Shape := ⟨4, ![1, 21, 64, 512]⟩
abbrev S1x64x512 : Shape := ⟨3, ![1, 64, 512]⟩
abbrev S1x8x128 : Shape := ⟨3, ![1, 8, 128]⟩
abbrev S1x1x64x512 : Shape := ⟨4, ![1, 1, 64, 512]⟩
abbrev S1x64 : Shape := ⟨2, ![1, 64]⟩
abbrev S1x64x1 : Shape := ⟨3, ![1, 64, 1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 38
  | .vmem => 8
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x8x128, .f32⟩
  | .hbm, ⟨3, _⟩ => ⟨S8x8x128, .f32⟩
  | .hbm, ⟨4, _⟩ => ⟨S8x1x1, .f32⟩
  | .hbm, ⟨5, _⟩ => ⟨S8, .f32⟩
  | .hbm, ⟨6, _⟩ => ⟨S8x1x1, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x21x64x512, .f32⟩
  | .local _ .vmem, ⟨1, _⟩ => ⟨S1x21x64x512, .f32⟩
  | .local _ .vmem, ⟨2, _⟩ => ⟨S1x64x512, .i32⟩
  | .local _ .vmem, ⟨3, _⟩ => ⟨S1x64x512, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x21x64x512_S1x21x64x512_0_0_0_0 : ∀ a, (![0, 0, 0, 0] : Fin 4 → Nat) a + S1x21x64x512.size a ≤ S1x21x64x512.size a
  h_S1x21x64x512 : 0 < S1x21x64x512.numel
  inb_S1x64x512_S1x64x512_0_0_0 : ∀ a, (![0, 0, 0] : Fin 3 → Nat) a + S1x64x512.size a ≤ S1x64x512.size a
  h_S1x64x512 : 0 < S1x64x512.numel
  reduces_S1x21x64x512_S1x64x512 : S1x21x64x512.Reduces [1] S1x64x512
  shapeCasts_S1x64x512_S1x1x64x512 : S1x64x512.ShapeCasts S1x1x64x512
  broadcasts_S1x1x64x512_S1x21x64x512 : S1x1x64x512.Broadcasts S1x21x64x512
  natLt_1_32 : 1 < 32
  iota_S1x21x64x512_d1_w32 : S1x21x64x512.Iotas .tc 32 [1]
  shapeCasts_S1x1x64x512_S1x64x512 : S1x1x64x512.ShapeCasts S1x64x512
  reduces_S1x64x512_S1x64 : S1x64x512.Reduces [2] S1x64
  shapeCasts_S1x64_S1x64x1 : S1x64.ShapeCasts S1x64x1
  reduces_S1x64x1_S1x1 : S1x64x1.Reduces [1] S1x1
  shapeCasts_S1x1_S1x1x1 : S1x1.ShapeCasts S1x1x1
  shapeCasts_S1x8x128_S1x8x128 : S1x8x128.ShapeCasts S1x8x128
  shapeCasts_S1x1x1_S1x1x1 : S1x1x1.ShapeCasts S1x1x1
  broadcasts_S1x1x1_S1x8x128 : S1x1x1.Broadcasts S1x8x128
  slices_S8x8x128_S8x1x1_0_0_0 : S8x8x128.Slices ![0, 0, 0] S8x1x1
  shapeCasts_S8x1x1_S8 : S8x1x1.ShapeCasts S8
  bcast_S_S8 : S_.BroadcastsInDim S8 (![] : Fin 0 → Fin S8.rank)
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x64x512.size a ≤ S8x21x512x512.size a
  hwx0_0 : ∀ i : grid0.Coords, EltTy.bits .f32 = 32 ∨ (Rect.block (s := S8x21x512x512) S1x21x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x512x512.size a
  hwx0_1 : ∀ i : grid0.Coords, EltTy.bits .i32 = 32 ∨ (Rect.block (s := S8x512x512) S1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_arg0) S1x21x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S8x21x262144 : Shape := ⟨3, ![8, 21, 262144]⟩
abbrev S8x262144 : Shape := ⟨2, ![8, 262144]⟩
abbrev S8x1x262144 : Shape := ⟨3, ![8, 1, 262144]⟩
abbrev S8x1x262144x1 : Shape := ⟨4, ![8, 1, 262144, 1]⟩
abbrev S1 : Shape := ⟨1, ![1]⟩
abbrev S1x1x1x1 : Shape := ⟨4, ![1, 1, 1, 1]⟩
abbrev S8 : Shape := ⟨1, ![8]⟩

abbrev nBuf : Space → Nat
  | .hbm => 82
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x21x512x512, .f32⟩
  | .hbm, ⟨15, _⟩ => ⟨S8x21x512x512, .f32⟩
  | .hbm, ⟨16, _⟩ => ⟨S8x21x262144, .f32⟩
  | .hbm, ⟨17, _⟩ => ⟨S8x262144, .i32⟩
  | .hbm, ⟨18, _⟩ => ⟨S_, .i32⟩
  | .hbm, ⟨19, _⟩ => ⟨S8x262144, .i32⟩
  | .hbm, ⟨20, _⟩ => ⟨S8x262144, .i1⟩
  | .hbm, ⟨21, _⟩ => ⟨S_, .i32⟩
  | .hbm, ⟨22, _⟩ => ⟨S_, .i32⟩
  | .hbm, ⟨23, _⟩ => ⟨S8x262144, .i32⟩
  | .hbm, ⟨24, _⟩ => ⟨S8x262144, .i32⟩
  | .hbm, ⟨25, _⟩ => ⟨S8x1x262144, .i32⟩
  | .hbm, ⟨26, _⟩ => ⟨S_, .i32⟩
  | .hbm, ⟨27, _⟩ => ⟨S8x1x262144, .i32⟩
  | .hbm, ⟨28, _⟩ => ⟨S8x1x262144, .i1⟩
  | .hbm, ⟨29, _⟩ => ⟨S_, .i32⟩
  | .hbm, ⟨30, _⟩ => ⟨S8x1x262144, .i32⟩
  | .hbm, ⟨31, _⟩ => ⟨S8x1x262144, .i32⟩
  | .hbm, ⟨32, _⟩ => ⟨S8x1x262144, .i32⟩
  | .hbm, ⟨33, _⟩ => ⟨S8x1x262144x1, .i32⟩
  | .hbm, ⟨34, _⟩ => ⟨S1, .i32⟩
  | .hbm, ⟨35, _⟩ => ⟨S_, .i32⟩
  | .hbm, ⟨36, _⟩ => ⟨S8x1x262144x1, .i32⟩
  | .hbm, ⟨37, _⟩ => ⟨S8x1x262144x1, .i1⟩
  | .hbm, ⟨38, _⟩ => ⟨S1x1x1x1, .i32⟩
  | .hbm, ⟨39, _⟩ => ⟨S8x1x262144x1, .i32⟩
  | .hbm, ⟨40, _⟩ => ⟨S8x1x262144x1, .i1⟩
  | .hbm, ⟨41, _⟩ => ⟨S8x1x262144x1, .i1⟩
  | .hbm, ⟨42, _⟩ => ⟨S_, .i1⟩
  | .hbm, ⟨43, _⟩ => ⟨S8x1x262144, .i1⟩
  | .hbm, ⟨44, _⟩ => ⟨S8x1x262144, .f32⟩
  | .hbm, ⟨45, _⟩ => ⟨S_, .f32⟩
  | .hbm, ⟨46, _⟩ => ⟨S8x1x262144, .f32⟩
  | .hbm, ⟨47, _⟩ => ⟨S8x1x262144, .f32⟩
  | .hbm, ⟨48, _⟩ => ⟨S8x262144, .f32⟩
  | .hbm, ⟨49, _⟩ => ⟨S8x262144, .f32⟩
  | .hbm, ⟨50, _⟩ => ⟨S8x262144, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_cst_11 : Ref sig .tc := ⟨.hbm, 78, rfl⟩
abbrev main_v40 : Ref sig .tc := ⟨.hbm, 79, rfl⟩
abbrev main_cst_12 : Ref sig .tc := ⟨.hbm, 80, rfl⟩
abbrev main_v41 : Ref sig .tc := ⟨.hbm, 81, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  shapeCasts_S8x21x512x512_S8x21x262144 : S8x21x512x512.ShapeCasts S8x21x262144
  shapeCasts_S8x512x512_S8x262144 : S8x512x512.ShapeCasts S8x262144
  bcast_S_S8x262144 : S_.BroadcastsInDim S8x262144 (![] : Fin 0 → Fin S8x262144.rank)
  bcast_S8x262144_S8x1x262144_0_2 : S8x262144.BroadcastsInDim S8x1x262144 (![0, 2] : Fin 2 → Fin S8x1x262144.rank)
  bcast_S_S8x1x262144 : S_.BroadcastsInDim S8x1x262144 (![] : Fin 0 → Fin S8x1x262144.rank)
  shapeCasts_S8x1x262144_S8x1x262144x1 : S8x1x262144.ShapeCasts S8x1x262144x1
  bcast_S_S8x1x262144x1 : S_.BroadcastsInDim S8x1x262144x1 (![] : Fin 0 → Fin S8x1x262144x1.rank)
  bcast_S1_S1x1x1x1_3 : S1.BroadcastsInDim S1x1x1x1 (![3] : Fin 1 → Fin S1x1x1x1.rank)
  bcast_S1x1x1x1_S8x1x262144x1_0_1_2_3 : S1x1x1x1.BroadcastsInDim S8x1x262144x1 (![0, 1, 2, 3] : Fin 4 → Fin S8x1x262144x1.rank)
  reducesTo_S8x1x262144x1_S8x1x262144_d3 : S8x1x262144x1.ReducesTo [3] S8x1x262144
  shapeCasts_S8x1x262144_S8x262144 : S8x1x262144.ShapeCasts S8x262144
  reducesTo_S8x262144_S8_d1 : S8x262144.ReducesTo [1] S8
  bcast_S_S8 : S_.BroadcastsInDim S8 (![] : Fin 0 → Fin S8.rank)
  reducesTo_S8_S_d0 : S8.ReducesTo [0] S_
  gather_S8x21x262144_S8x1x262144x1_S8x1x262144_n_1_02_02_1_3_111_wf : GatherDims.WF S8x21x262144 S8x1x262144x1 S8x1x262144 [] [1] [0, 2] [1] [0, 2] 3 ![1, 1, 1]

variable [Facts₀]

def gather_S8x21x262144_S8x1x262144x1_S8x1x262144_n_1_02_02_1_3_111 : GatherDims S8x21x262144 S8x1x262144x1 S8x1x262144 where
  offsetDims := []
  collapsedSliceDims := [1]
  operandBatchingDims := [0, 2]
  startIndicesBatchingDims := [0, 2]
  startIndexMap := [1]
  indexVectorDim := 3
  sliceSizes := ![1, 1, 1]
  wf := gather_S8x21x262144_S8x1x262144x1_S8x1x262144_n_1_02_02_1_3_111_wf

class Facts : Prop extends Facts₀ where

variable [Facts]
-- ==== Proof.RefStages.lean ====
/-
  The reference program's result as the last of its stages. The program is a straight line of 80 array operations;
  what each buffer holds afterwards is the fold of the operations' results over the launch contents. Cut the
  line into five stretches: the softmax, flattened (operations 1-15); the weight mask and the gather index with
  the ignored label replaced by 0 (16-24); the gather along the class axis (25-46); the weighted shares and the
  two per-batch sums (47-53); the chain from the sums to the mean (54-80). Each stretch, run from ANY contents that
  hold the stages it reads, leaves the stages it writes and does not touch the ones a later stretch still reads;
  composing the five gives the result buffer at the last stage of the argument arrays.
-/
import proofs.«426206_j21749714387529_3_alg».proof.Proof.RefRunP
import proofs.«426206_j21749714387529_3_alg».proof.Proof.RefReadP
import Idealize.ShloMosaic.Lib.StableHlo.Run
import Idealize.ShloMosaic.Lib.Pipeline.Frame

set_option maxRecDepth 8192

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch 1: the flattened softmax -/

theorem s1_v11 (x0 : (⟨S8x21x512x512, .f32⟩ : BufTy).Contents (Elt F)) (W : Valuation τ sig (Elt F)) (h0 : W (Proc.devRef .tc main_arg0) = x0) :
    after (ops1 (F := F)) W (Proc.devRef .tc main_v11) = val_main_v11 (F := F) x0 := by
  subst h0
  after_results_simp
  rfl

theorem s1_keeps_arg1 (W : Valuation τ sig (Elt F)) : after (ops1 (F := F)) W (Proc.devRef .tc main_arg1) = W (Proc.devRef .tc main_arg1) := by
  after_results_simp

/-! ## Stretch 2: the weight mask and the gather index -/

theorem s2_v14 (x1 : (⟨S8x512x512, .i32⟩ : BufTy).Contents (Elt F)) (W : Valuation τ sig (Elt F)) (h1 : W (Proc.devRef .tc main_arg1) = x1) :
    after (ops2 (F := F)) W (Proc.devRef .tc main_v14) = val_main_v14 (F := F) x1 := by
  subst h1
  after_results_simp
  rfl

theorem s2_v16 (x1 : (⟨S8x512x512, .i32⟩ : BufTy).Contents (Elt F)) (W : Valuation τ sig (Elt F)) (h1 : W (Proc.devRef .tc main_arg1) = x1) :
    after (ops2 (F := F)) W (Proc.devRef .tc main_v16) = val_main_v16 (F := F) x1 := by
  subst h1
  after_results_simp
  simp only [TRef.ofBuf, TRef.toBuf, cast_eq]
  rfl

theorem s2_keeps_v11 (W : Valuation τ sig (Elt F)) : after (ops2 (F := F)) W (Proc.devRef .tc main_v11) = W (Proc.devRef .tc main_v11) := by
  after_results_simp

/-! ## Stretch 3: the gather along the class axis -/

theorem s3_v17 (x0 : (⟨S8x21x512x512, .f32⟩ : BufTy).Contents (Elt F)) (x1 : (⟨S8x512x512, .i32⟩ : BufTy).Contents (Elt F)) (W : Valuation τ sig (Elt F))
    (h11 : W (Proc.devRef .tc main_v11) = val_main_v11 (F := F) x0) (h16 : W (Proc.devRef .tc main_v16) = val_main_v16 (F := F) x1) :
    after (ops3 (F := F)) W (Proc.devRef .tc main_v17) = val_main_v17 (F := F) x0 x1 := by
  after_results_simp
  simp only [TRef.ofBuf, TRef.toBuf, cast_eq, h11, h16]
  rfl

theorem s3_keeps_v14 (W : Valuation τ sig (Elt F)) : after (ops3 (F := F)) W (Proc.devRef .tc main_v14) = W (Proc.devRef .tc main_v14) := by
  after_results_simp

/-! ## Stretch 4: the weighted shares and the per-batch sums -/

theorem s4_v21 (x0 : (⟨S8x21x512x512, .f32⟩ : BufTy).Contents (Elt F)) (x1 : (⟨S8x512x512, .i32⟩ : BufTy).Contents (Elt F)) (W : Valuation τ sig (Elt F))
    (h17 : W (Proc.devRef .tc main_v17) = val_main_v17 (F := F) x0 x1) (h14 : W (Proc.devRef .tc main_v14) = val_main_v14 (F := F) x1) :
    after (ops4 (F := F)) W (Proc.devRef .tc main_v21) = val_main_v21 (F := F) x0 x1 := by
  after_results_simp
  simp only [h17, h14]
  rfl

theorem s4_v22 (x1 : (⟨S8x512x512, .i32⟩ : BufTy).Contents (Elt F)) (W : Valuation τ sig (Elt F)) (h14 : W (Proc.devRef .tc main_v14) = val_main_v14 (F := F) x1) :
    after (ops4 (F := F)) W (Proc.devRef .tc main_v22) = val_main_v22 (F := F) x1 := by
  after_results_simp
  simp only [h14]
  rfl

/-! ## Stretch 5: from the sums to the mean -/

theorem s5_v41 (x0 : (⟨S8x21x512x512, .f32⟩ : BufTy).Contents (Elt F)) (x1 : (⟨S8x512x512, .i32⟩ : BufTy).Contents (Elt F)) (W : Valuation τ sig (Elt F))
    (h21 : W (Proc.devRef .tc main_v21) = val_main_v21 (F := F) x0 x1) (h22 : W (Proc.devRef .tc main_v22) = val_main_v22 (F := F) x1) :
    after (ops5 (F := F)) W (Proc.devRef .tc main_v41) = val_main_v41 (F := F) x0 x1 := by
  after_results_simp
  simp only [h21, h22]
  rfl

/-! ## The five stretches in a row -/

/-- The result buffer after the whole line holds the last stage of the two argument arrays. -/
theorem after_main_v41 (m : (ℓ : Loc nD τ sig) → Buf (Elt F) ℓ) (c : Dev nD) :
    after (ops (F := F)) (launchContents m c) (Proc.devRef .tc main_v41)
      = val_main_v41 (F := F) (m ((c.tc : Thread nD τ).loc main_arg0)) (m ((c.tc : Thread nD τ).loc main_arg1)) := by
  rw [ops_eq_chunks, StableHlo.after_append, StableHlo.after_append, StableHlo.after_append, StableHlo.after_append]
  have a0 : launchContents m c (Proc.devRef .tc main_arg0) = m ((c.tc : Thread nD τ).loc main_arg0) := rfl
  have a1 : launchContents m c (Proc.devRef .tc main_arg1) = m ((c.tc : Thread nD τ).loc main_arg1) := rfl
  have b1 := (s1_keeps_arg1 (F := F) (launchContents m c)).trans a1
  have h11 := (s2_keeps_v11 (F := F) (after ops1 (launchContents m c))).trans (s1_v11 _ (launchContents m c) a0)
  have h16 := s2_v16 _ (after ops1 (launchContents m c)) b1
  have h14 := s2_v14 _ (after ops1 (launchContents m c)) b1
  have h17 := s3_v17 _ _ (after ops2 (after ops1 (launchContents m c))) h11 h16
  have h14' := (s3_keeps_v14 (F := F) (after ops2 (after ops1 (launchContents m c)))).trans h14
  exact s5_v41 _ _ (after ops4 (after ops3 (after ops2 (after ops1 (launchContents m c)))))
    (s4_v21 _ _ (after ops3 (after ops2 (after ops1 (launchContents m c)))) h17 h14')
    (s4_v22 _ (after ops3 (after ops2 (after ops1 (launchContents m c)))) h14')

/-- The reference's run with its result at the last stage: every weakly fair execution terminates, the result
    buffer at `val_main_v41` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = val_main_v41 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (after_main_v41 m c), (h c).2⟩) (Cert.ReferenceIdeal.ValueP.run (F := F) m ρ)

end Cert.ReferenceIdeal.Stages

end
-- ==== Proof.Spec.lean ====
/-
  The mathematics both programs compute, stated once over plain index functions.

  A pixel has 21 logits `x c` and a label `t`. With `M = max_c x c`, `e c = exp (x c - M)` and `S = Σ_c e c`, the
  probability the softmax gives the labelled class is `e t / S`. The kernel obtains the numerator as a one-hot sum,
  `Σ_c (if c = t then e c else 0)`; the reference gathers `e t / S` along the class axis. A pixel whose label is 255
  is ignored: its weight `vf t` is 0, every other label's is 1.

  Per batch element `b` the true-positive mass is `TP b = Σ_pixels pix` and the valid count `NV b = Σ_pixels vf`.
  The kernel accumulates them tile by tile (8 tiles of 64 rows, each row summed over its 512 lanes first), the
  reference over the flattened pixel index `n = 512 h + w`. Both then apply one and the same chain to `(TP, NV)`:
  the Tversky index, one minus it, a power, the mean over the 8 batch elements. The kernel alone clamps
  `1 - tversky` at zero before the power; that is the parameter `cl` below.
-/
import Idealize.ShloMosaic.PureOps.Ideal
import Idealize.ShloMosaic.PureOps.Ideal.Laws
import Idealize.ShloMosaic.Lib.ValueIdx

noncomputable section

namespace Cert.FocalTversky

open Idealize.ShloMosaic Idealize.ShloMosaic.ValueIdx

/-- The logits array `[8, 21, 512, 512]` and the label array `[8, 512, 512]` as functions of their indices. -/
abbrev Logits := (⟨4, ![8, 21, 512, 512]⟩ : Shape).Idx → EReal
abbrev Labels := (⟨3, ![8, 512, 512]⟩ : Shape).Idx → BitVec 32

/-! ## One pixel -/

/-- The largest of a pixel's 21 logits, as a fold of `max` from `-∞`. -/
def chanMax (x : Fin 21 → EReal) : EReal := (Finset.univ : Finset (Fin 21)).fold max ⊥ x

/-- The shifted exponential of class `c`. -/
def ex (x : Fin 21 → EReal) (c : Fin 21) : EReal := Ideal.exp (x c - chanMax x)

/-- The softmax denominator. -/
def den (x : Fin 21 → EReal) : EReal := ∑ c : Fin 21, ex x c

/-- The weight of a pixel: 0 when its label is the ignored value 255, else 1. -/
def vf (t : BitVec 32) : EReal := if t = 255#32 then 0 else 1

/-- The one-hot numerator: the shifted exponential of the class whose number is the label, 0 if there is none. -/
def num (x : Fin 21 → EReal) (t : BitVec 32) : EReal :=
  ∑ c : Fin 21, if BitVec.ofNat 32 c.val = t then ex x c else 0

/-- A pixel's contribution to the true-positive mass. -/
def pix (x : Fin 21 → EReal) (t : BitVec 32) : EReal := Ideal.div (num x t) (den x) * vf t

/-- A label is admissible: the ignored value, or the number of one of the 21 classes. -/
def LabelOK (t : BitVec 32) : Prop := t = 255#32 ∨ ∃ c : Fin 21, t = BitVec.ofNat 32 c.val

/-- The 21 logits of pixel `(b, h, w)`. -/
def logitsAt (X : Logits) (b : Fin 8) (h w : Fin 512) : Fin 21 → EReal := fun c => X (ix4 b c h w)

/-- Pixel `(b, h, w)`'s contribution, and its weight. -/
def pixAt (X : Logits) (T : Labels) (b : Fin 8) (h w : Fin 512) : EReal := pix (logitsAt X b h w) (T (ix3 b h w))
def vfAt (T : Labels) (b : Fin 8) (h w : Fin 512) : EReal := vf (T (ix3 b h w))

/-! ## One batch element, in the two arrangements -/

/-- Row `r` of tile `j`: image row `64 j + r`. -/
def rowOf (j : Fin 8) (r : Fin 64) : Fin 512 := ⟨64 * j.val + r.val, by omega⟩

/-- The image row and column of flattened pixel `n = 512 h + w`. -/
def hOf (n : Fin 262144) : Fin 512 := ⟨n.val / 512, by omega⟩
def wOf (n : Fin 262144) : Fin 512 := ⟨n.val % 512, Nat.mod_lt _ (by norm_num)⟩

/-- A function of the pixels of one image summed tile by tile, row by row, lane by lane … -/
def sumTiled (f : Fin 512 → Fin 512 → EReal) : EReal := ∑ j : Fin 8, ∑ r : Fin 64, ∑ w : Fin 512, f (rowOf j r) w

/-- … and over the flattened pixel index. -/
def sumFlat (f : Fin 512 → Fin 512 → EReal) : EReal := ∑ n : Fin 262144, f (hOf n) (wOf n)

def tpTiled (X : Logits) (T : Labels) (b : Fin 8) : EReal := sumTiled (pixAt X T b)
def nvTiled (T : Labels) (b : Fin 8) : EReal := sumTiled (vfAt T b)
def tpFlat (X : Logits) (T : Labels) (b : Fin 8) : EReal := sumFlat (pixAt X T b)
def nvFlat (T : Labels) (b : Fin 8) : EReal := sumFlat (vfAt T b)

/-! ## From `(TP, NV)` to the loss -/

/-- The f32 literals of the chain, at their exact binary values. -/
def cZero : EReal := Ideal.ofBits .f32 0x00000000#32
def cOne : EReal := Ideal.ofBits .f32 0x3F800000#32
def cAlpha : EReal := Ideal.ofBits .f32 0x3F333333#32
def cBeta : EReal := Ideal.ofBits .f32 0x3E99999A#32
def cGamma : EReal := Ideal.ofBits .f32 0x3FAAAAAB#32
def cEight : EReal := Ideal.ofBits .f32 0x41000000#32

/-- The Tversky index of one batch element, with false positives and false negatives both `NV - TP`. -/
def tversky (tp nv : EReal) : EReal :=
  Ideal.div (tp + cOne) (((tp + cAlpha * (nv - tp)) + cBeta * (nv - tp)) + cOne)

/-- One batch element's focal term; `cl` is applied to `1 - tversky` before the power. -/
def focal (cl : EReal → EReal) (tp nv : EReal) : EReal := Ideal.pow (cl (cOne - tversky tp nv)) cGamma

/-- The mean of the 8 focal terms. -/
def loss (cl : EReal → EReal) (tp nv : Fin 8 → EReal) : EReal :=
  Ideal.div (cZero + ∑ b : Fin 8, focal cl (tp b) (nv b)) cEight

/-- The kernel's clamp of `1 - tversky` at zero. -/
def clampZero (y : EReal) : EReal := max y cZero

end Cert.FocalTversky

end
-- ==== Proof.PixelMath.lean ====
/-
  One pixel, over the reals. With finite logits the channel maximum `M` is finite, every shifted exponential
  `exp (x c - M)` is a positive real, so is their sum `S`, and the labelled class's share `e t / S` lies in (0, 1].
  Hence a pixel's contribution is a real between 0 and its weight.
-/
import proofs.«426206_j21749714387529_3_alg».proof.Proof.Spec

noncomputable section

namespace Cert.FocalTversky

open Idealize.ShloMosaic Idealize.ShloMosaic.ValueIdx

/-- The weight is the real 0 or 1. -/
theorem vf_cases (t : BitVec 32) : vf t = 0 ∨ vf t = 1 := by
  unfold vf
  by_cases h : t = 255#32
  · left; rw [if_pos h]
  · right; rw [if_neg h]

/-- Two class numbers with the same 32-bit word are the same class: both are below 21, far below 2^32. -/
theorem classWord_inj {b c : Fin 21} (h : BitVec.ofNat 32 b.val = BitVec.ofNat 32 c.val) : b = c := by
  have h2 := congrArg BitVec.toNat h
  rw [BitVec.toNat_ofNat, BitVec.toNat_ofNat] at h2
  have hb := b.isLt
  have hc := c.isLt
  apply Fin.ext
  omega

/-- No class number has the word 255. -/
theorem classWord_ne_ignored (c : Fin 21) : BitVec.ofNat 32 c.val ≠ 255#32 := by
  intro h
  have h2 := congrArg BitVec.toNat h
  rw [BitVec.toNat_ofNat, BitVec.toNat_ofNat] at h2
  have hc := c.isLt
  omega

/-- For a class label the one-hot sum has exactly one non-zero term. -/
theorem num_of_class (x : Fin 21 → EReal) (c : Fin 21) : num x (BitVec.ofNat 32 c.val) = ex x c := by
  unfold num
  rw [Finset.sum_eq_single c]
  · rw [if_pos rfl]
  · intro b _ hb
    rw [if_neg (fun h => hb (classWord_inj h))]
  · intro h
    exact absurd (Finset.mem_univ c) h

/-- For the ignored label no class matches. -/
theorem num_of_ignored (x : Fin 21 → EReal) : num x 255#32 = 0 := by
  unfold num
  apply Finset.sum_eq_zero
  intro c _
  rw [if_neg (classWord_ne_ignored c)]

/-- The channel maximum is attained: it is one of the 21 logits. -/
theorem chanMax_attained (x : Fin 21 → EReal) : ∃ i, chanMax x = x i := by
  obtain ⟨i, _, hi⟩ := Finset.exists_mem_eq_sup (Finset.univ : Finset (Fin 21)) Finset.univ_nonempty x
  exact ⟨i, hi⟩

/-- A finite sum of reals, read in the extended reals, is the sum of the readings. -/
private theorem coe_sum_real {ι : Type} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- With finite logits and an admissible label, a pixel's contribution is a real in `[0, vf t]`. -/
theorem pix_real (x : Fin 21 → EReal) (t : BitVec 32) (hx : ∀ c, ∃ r : ℝ, x c = (r : EReal)) (ht : LabelOK t) :
    ∃ p q : ℝ, pix x t = (p : EReal) ∧ vf t = (q : EReal) ∧ 0 ≤ p ∧ p ≤ q := by
  rcases ht with ht | ⟨c, hc⟩
  · -- the ignored label: weight 0, and anything times 0 is 0
    subst ht
    have hv : vf 255#32 = 0 := by unfold vf; rw [if_pos rfl]
    refine ⟨0, 0, ?_, ?_, le_refl _, le_refl _⟩
    · unfold pix
      rw [hv, mul_zero, EReal.coe_zero]
    · rw [hv, EReal.coe_zero]
  · -- a class label: the share of class `c` in the softmax
    subst hc
    choose r hr using hx
    obtain ⟨i, hi⟩ := chanMax_attained x
    have hM : chanMax x = ((r i : ℝ) : EReal) := by rw [hi, hr i]
    have hex : ∀ d, ex x d = ((Real.exp (r d - r i) : ℝ) : EReal) := by
      intro d
      unfold ex
      rw [hM, hr d, ← EReal.coe_sub, Ideal.exp_coe]
    have hden : den x = ((∑ d : Fin 21, Real.exp (r d - r i) : ℝ) : EReal) := by
      unfold den
      rw [← coe_sum_real]
      exact Finset.sum_congr rfl (fun d _ => hex d)
    have hSpos : 0 < ∑ d : Fin 21, Real.exp (r d - r i) :=
      Finset.sum_pos (fun d _ => Real.exp_pos _) Finset.univ_nonempty
    have hle : Real.exp (r c - r i) ≤ ∑ d : Fin 21, Real.exp (r d - r i) :=
      Finset.single_le_sum (f := fun d => Real.exp (r d - r i)) (fun d _ => (Real.exp_pos _).le)
        (Finset.mem_univ c)
    have hvf : vf (BitVec.ofNat 32 c.val) = ((1 : ℝ) : EReal) := by
      unfold vf
      rw [if_neg (classWord_ne_ignored c), EReal.coe_one]
    refine ⟨Real.exp (r c - r i) / ∑ d : Fin 21, Real.exp (r d - r i), 1, ?_, hvf, ?_, ?_⟩
    · unfold pix
      rw [num_of_class, hvf, hex c, hden, Ideal.div_coe hSpos.ne', EReal.coe_one, mul_one, ← EReal.coe_mul,
        mul_one_div]
    · exact div_nonneg (Real.exp_pos _).le hSpos.le
    · exact (div_le_one hSpos).mpr hle

end Cert.FocalTversky

end
-- ==== Proof.SumMath.lean ====
/-
  Sums over one image. The tile-by-tile arrangement (tile `j`, row `r` of the tile, lane `w`) and the flattened one
  (`n = 512 h + w`) enumerate the same 512 × 512 pixels, `h = 64 j + r`; addition of extended reals is commutative
  and associative, so the two sums agree with no finiteness needed. Termwise real bounds pass to the sums.
-/
import proofs.«426206_j21749714387529_3_alg».proof.Proof.Spec

noncomputable section

namespace Cert.FocalTversky

open Idealize.ShloMosaic Idealize.ShloMosaic.ValueIdx

/-- The numbering of the pixels of one image: tile `j`, row `r` of the tile and lane `w` go to the flattened index
`(64 j + r) · 512 + w`; the way back reads off `n / 32768`, `(n / 512) % 64` and `n % 512`. -/
def tileEquiv : Fin 8 × Fin 64 × Fin 512 ≃ Fin 262144 where
  toFun p := ⟨(64 * p.1.val + p.2.1.val) * 512 + p.2.2.val, by
    have h1 := p.1.isLt; have h2 := p.2.1.isLt; have h3 := p.2.2.isLt; omega⟩
  invFun n := (⟨n.val / 32768, by have := n.isLt; omega⟩, ⟨(n.val / 512) % 64, Nat.mod_lt _ (by norm_num)⟩,
    ⟨n.val % 512, Nat.mod_lt _ (by norm_num)⟩)
  left_inv := by
    rintro ⟨⟨j, hj⟩, ⟨r, hr⟩, ⟨w, hw⟩⟩
    refine Prod.ext (Fin.ext ?_) (Prod.ext (Fin.ext ?_) (Fin.ext ?_))
    · show ((64 * j + r) * 512 + w) / 32768 = j
      omega
    · show (((64 * j + r) * 512 + w) / 512) % 64 = r
      omega
    · show ((64 * j + r) * 512 + w) % 512 = w
      omega
  right_inv := by
    rintro ⟨n, hn⟩
    refine Fin.ext ?_
    show (64 * (n / 32768) + (n / 512) % 64) * 512 + n % 512 = n
    omega

/-- The image row of the pixel numbered from `(j, r, w)` is row `r` of tile `j`. -/
theorem hOf_tileEquiv (j : Fin 8) (r : Fin 64) (w : Fin 512) : hOf (tileEquiv (j, r, w)) = rowOf j r := by
  obtain ⟨j, hj⟩ := j; obtain ⟨r, hr⟩ := r; obtain ⟨w, hw⟩ := w
  refine Fin.ext ?_
  show ((64 * j + r) * 512 + w) / 512 = 64 * j + r
  omega

/-- The image column of the pixel numbered from `(j, r, w)` is `w`. -/
theorem wOf_tileEquiv (j : Fin 8) (r : Fin 64) (w : Fin 512) : wOf (tileEquiv (j, r, w)) = w := by
  obtain ⟨j, hj⟩ := j; obtain ⟨r, hr⟩ := r; obtain ⟨w, hw⟩ := w
  refine Fin.ext ?_
  show ((64 * j + r) * 512 + w) % 512 = w
  omega

/-- The two arrangements of a sum over the pixels of one image agree. -/
theorem sumTiled_eq_sumFlat (f : Fin 512 → Fin 512 → EReal) : sumTiled f = sumFlat f := by
  unfold sumTiled sumFlat
  have h1 : (∑ j : Fin 8, ∑ r : Fin 64, ∑ w : Fin 512, f (rowOf j r) w)
      = ∑ p : Fin 8 × Fin 64 × Fin 512, f (rowOf p.1 p.2.1) p.2.2 := by
    rw [Fintype.sum_prod_type]
    refine Finset.sum_congr rfl (fun j _ => ?_)
    rw [Fintype.sum_prod_type]
  rw [h1]
  refine Fintype.sum_equiv tileEquiv _ _ ?_
  rintro ⟨j, r, w⟩
  rw [hOf_tileEquiv, wOf_tileEquiv]

/-- A finite sum of reals, each read as an extended real, is the real sum read as an extended real. -/
theorem coe_sum_real {ι : Type*} (s : Finset ι) (p : ι → ℝ) :
    (∑ i ∈ s, (p i : EReal)) = ((∑ i ∈ s, p i : ℝ) : EReal) := by
  classical
  refine Finset.induction_on s ?_ ?_
  · simp
  · intro a s ha ih
    rw [Finset.sum_insert ha, Finset.sum_insert ha, ih, EReal.coe_add]

/-- Termwise real bounds `0 ≤ f ≤ g` pass to a sum over any finite index type. -/
theorem sum_real_bounds {ι : Type*} [Fintype ι] (f g : ι → EReal)
    (h : ∀ i, ∃ p q : ℝ, f i = (p : EReal) ∧ g i = (q : EReal) ∧ 0 ≤ p ∧ p ≤ q) :
    ∃ P Q : ℝ, (∑ i, f i) = (P : EReal) ∧ (∑ i, g i) = (Q : EReal) ∧ 0 ≤ P ∧ P ≤ Q := by
  choose p q hf hg h0 hpq using h
  refine ⟨∑ i, p i, ∑ i, q i, ?_, ?_, ?_, ?_⟩
  · rw [← coe_sum_real]
    exact Finset.sum_congr rfl (fun i _ => hf i)
  · rw [← coe_sum_real]
    exact Finset.sum_congr rfl (fun i _ => hg i)
  · exact Finset.sum_nonneg (fun i _ => h0 i)
  · exact Finset.sum_le_sum (fun i _ => hpq i)

/-- If at every pixel `f` and `g` are reals with `0 ≤ f ≤ g`, so are their sums. -/
theorem sumTiled_real (f g : Fin 512 → Fin 512 → EReal)
    (h : ∀ a b, ∃ p q : ℝ, f a b = (p : EReal) ∧ g a b = (q : EReal) ∧ 0 ≤ p ∧ p ≤ q) :
    ∃ P Q : ℝ, sumTiled f = (P : EReal) ∧ sumTiled g = (Q : EReal) ∧ 0 ≤ P ∧ P ≤ Q := by
  unfold sumTiled
  refine sum_real_bounds _ _ (fun j => ?_)
  refine sum_real_bounds _ _ (fun r => ?_)
  exact sum_real_bounds _ _ (fun w => h (rowOf j r) w)

end Cert.FocalTversky

end
-- ==== Proof.TailMath.lean ====
/-
  The clamp is the identity where it is applied. For reals `0 ≤ TP ≤ NV` the Tversky denominator
  `TP + α (NV - TP) + β (NV - TP) + 1` is at least `TP + 1 > 0` (α, β > 0), so the index is at most 1 and
  `1 - tversky ≥ 0`: `max (1 - tversky) 0 = 1 - tversky`.
-/
import proofs.«426206_j21749714387529_3_alg».proof.Proof.Spec

noncomputable section

namespace Cert.FocalTversky

open Idealize.ShloMosaic Idealize.ShloMosaic.ValueIdx

/-! ## The literals as reals -/

/-- The pattern of `+0.0` denotes `0`. -/
theorem cZero_eq : cZero = 0 := by
  unfold cZero
  exact Ideal.ofBits_zero_f32

/-- The pattern of `1.0` denotes the real `1`. -/
theorem cOne_eq : cOne = ((1 : ℝ) : EReal) := by
  unfold cOne
  simp [Ideal.ofBits, Ideal.ieee, -EReal.coe_mul]; norm_num

/-- The pattern nearest `0.7` denotes the dyadic `11744051 / 2^24`. -/
theorem cAlpha_eq : cAlpha = ((11744051 / 16777216 : ℝ) : EReal) := by
  unfold cAlpha
  simp [Ideal.ofBits, Ideal.ieee, -EReal.coe_mul]; norm_num

/-- The pattern nearest `0.3` denotes the dyadic `5033165 / 2^24`. -/
theorem cBeta_eq : cBeta = ((5033165 / 16777216 : ℝ) : EReal) := by
  unfold cBeta
  simp [Ideal.ofBits, Ideal.ieee, -EReal.coe_mul]; norm_num

/-! ## One batch element -/

/-- For reals `0 ≤ P ≤ Q` the Tversky index is the real quotient `(P + 1) / D` with
    `D = P + α (Q - P) + β (Q - P) + 1 ≥ P + 1 > 0`, so one minus it is a non-negative real and the clamp at zero
    returns it unchanged. -/
theorem clampZero_one_sub_tversky (P Q : ℝ) (hP : 0 ≤ P) (hPQ : P ≤ Q) :
    clampZero (cOne - tversky (P : EReal) (Q : EReal)) = cOne - tversky (P : EReal) (Q : EReal) := by
  have hQP : 0 ≤ Q - P := sub_nonneg.mpr hPQ
  have hD1 : P + 1 ≤ P + 11744051 / 16777216 * (Q - P) + 5033165 / 16777216 * (Q - P) + 1 := by
    have h1 : 0 ≤ 11744051 / 16777216 * (Q - P) := mul_nonneg (by norm_num) hQP
    have h2 : 0 ≤ 5033165 / 16777216 * (Q - P) := mul_nonneg (by norm_num) hQP
    linarith
  have hD0 : 0 < P + 11744051 / 16777216 * (Q - P) + 5033165 / 16777216 * (Q - P) + 1 := by linarith
  have hT : tversky (P : EReal) (Q : EReal)
      = (((P + 1) * (1 / (P + 11744051 / 16777216 * (Q - P) + 5033165 / 16777216 * (Q - P) + 1)) : ℝ) : EReal) := by
    unfold tversky
    rw [cOne_eq, cAlpha_eq, cBeta_eq, ← EReal.coe_sub, ← EReal.coe_mul, ← EReal.coe_mul, ← EReal.coe_add,
      ← EReal.coe_add, ← EReal.coe_add, ← EReal.coe_add, Ideal.div_coe (ne_of_gt hD0), ← EReal.coe_mul]
  unfold clampZero
  rw [hT, cOne_eq, cZero_eq, ← EReal.coe_sub]
  apply max_eq_left
  rw [EReal.coe_nonneg, sub_nonneg, mul_one_div]
  exact (div_le_one hD0).mpr hD1

/-! ## The loss -/

/-- Under `0 ≤ TP b ≤ NV b` (reals) for every batch element, clamping `1 - tversky` at zero changes nothing. -/
theorem loss_clamp (tp nv : Fin 8 → EReal)
    (h : ∀ b, ∃ P Q : ℝ, tp b = (P : EReal) ∧ nv b = (Q : EReal) ∧ 0 ≤ P ∧ P ≤ Q) :
    loss clampZero tp nv = loss id tp nv := by
  have hb : ∀ b, focal clampZero (tp b) (nv b) = focal id (tp b) (nv b) := by
    intro b
    obtain ⟨P, Q, hp, hq, hP, hPQ⟩ := h b
    simp only [focal, id]
    rw [hp, hq, clampZero_one_sub_tversky P Q hP hPQ]
  simp only [loss]
  rw [Finset.sum_congr rfl (fun b _ => hb b)]

end Cert.FocalTversky

end
-- ==== Proof.Bridge.lean ====
/-
  The two results are one number. Both programs apply the chain `loss` to per-batch sums over the same pixels: the
  reference over the flattened pixel index, the kernel tile by tile, and the kernel clamps `1 - tversky` at zero.
  The arrangements agree because addition of extended reals is commutative and associative. The clamp is idle
  because, for finite logits and admissible labels, every pixel contributes a real between 0 and its weight, so
  `0 ≤ TP b ≤ NV b` as reals and the Tversky index is at most 1.
-/
import proofs.«426206_j21749714387529_3_alg».proof.Proof.Spec
import proofs.«426206_j21749714387529_3_alg».proof.Proof.PixelMath
import proofs.«426206_j21749714387529_3_alg».proof.Proof.SumMath
import proofs.«426206_j21749714387529_3_alg».proof.Proof.TailMath

noncomputable section

namespace Cert.FocalTversky

open Idealize.ShloMosaic Idealize.ShloMosaic.ValueIdx

/-- For finite logits and admissible labels the kernel's clamped loss of the tiled sums is the reference's
    unclamped loss of the flat sums. -/
theorem bridge (X : Logits) (T : Labels) (hfin : ∀ i, ∃ r : ℝ, X i = (r : EReal)) (hlab : ∀ i, LabelOK (T i)) :
    loss clampZero (tpTiled X T) (nvTiled T) = loss id (tpFlat X T) (nvFlat T) := by
  have e1 : tpFlat X T = tpTiled X T := funext fun b => (sumTiled_eq_sumFlat (pixAt X T b)).symm
  have e2 : nvFlat T = nvTiled T := funext fun b => (sumTiled_eq_sumFlat (vfAt T b)).symm
  rw [e1, e2]
  refine loss_clamp _ _ fun b => ?_
  exact sumTiled_real (pixAt X T b) (vfAt T b) fun a w =>
    pix_real (logitsAt X b a w) (T (ix3 b a w)) (fun c => hfin _) (hlab _)

end Cert.FocalTversky

end
-- ==== Proof.PreDecode.lean ====
/-
  What the precondition says. It is the conjunction of two all-reductions: every logit has absolute value below
  `+∞`, so is a real; and every label equals 255 or lies in `[0, 21)` as a signed word, so is admissible.
-/
import proofs.«426206_j21749714387529_3_alg».proof.Pre_finite_inputs
import proofs.«426206_j21749714387529_3_alg».proof.Proof.Gen.Pre_finite_inputs
import proofs.«426206_j21749714387529_3_alg».proof.Proof.Spec
import Idealize.ShloMosaic.Lib.ReduceAll
import Idealize.ShloMosaic.Lib.StableHlo.Predicate

noncomputable section

namespace Cert.FocalTversky

open Idealize.ShloMosaic Idealize.ShloMosaic.ValueIdx

/-- The rank-0 shape has a single index: two of them agree at each of their zero coordinates. -/
theorem preDecode_scalar_subsingleton : Subsingleton Cert.Pre_finite_inputs.S_.Idx :=
  ⟨fun a b => funext fun d => d.elim0⟩

/-- The f32 pattern with all exponent bits set, sign and fraction clear, denotes `+∞`. -/
theorem preDecode_ofBits_inf : Ideal.ofBits .f32 0x7F800000#32 = (⊤ : EReal) := by
  simp [Ideal.ofBits, Ideal.ieee]

/-- An extended real whose absolute value `max x (-x)` is below `+∞` is neither infinity, so it is a real:
    at `x = -∞` the absolute value is `-(-∞) = +∞`, at `x = +∞` it is `x` itself. -/
theorem preDecode_real_of_abs_lt_top (x : EReal) (h : max x (-x) < ⊤) : ∃ r : ℝ, x = (r : EReal) := by
  induction x using EReal.rec with
  | bot => simp at h
  | coe r => exact ⟨r, rfl⟩
  | top => simp at h

/-- A 32-bit word that is 255, or whose signed value lies in `[0, 21)`, is admissible: in the second case the
    signed value is non-negative, so it is the unsigned value, which is then a class number `c < 21`, and the
    word is `c` written back as a word. -/
theorem preDecode_labelOK_of_range (t : BitVec 32) (h : t = 255#32 ∨ (0 ≤ t.toInt ∧ t.toInt < 21)) :
    LabelOK t := by
  rcases h with h | ⟨h0, h1⟩
  · exact Or.inl h
  · right
    have ht : t.toNat < 21 := by
      have hc := BitVec.toInt_eq_toNat_cond t
      have hl := t.isLt
      split_ifs at hc <;> omega
    exact ⟨⟨t.toNat, ht⟩, by simp⟩

/-- From the printed precondition: the logits are reals and the labels admissible. -/
theorem pre_decode [Cert.Pre_finite_inputs.Facts] (X : Logits) (T : Labels)
    (h : Cert.Pre_finite_inputs.fn (F := Ideal) X T = fun _ => 1#1) :
    (∀ i, ∃ r : ℝ, X i = (r : EReal)) ∧ ∀ i, LabelOK (T i) := by
  haveI := preDecode_scalar_subsingleton
  -- The predicate at its one index is the `and` of the two all-reductions; both are 1.
  have h0 := congrFun h ValueIdx.ix0
  dsimp only [Cert.Pre_finite_inputs.fn] at h0
  obtain ⟨hA, hB⟩ := IntOp.andi_eq_one.1 h0
  refine ⟨fun i => ?_, fun i => ?_⟩
  · -- Every element of the first reduced array is 1: `|X i| < +∞`.
    have e := Host.reduce_andi_all _ _ _ _ _ hA i
    dsimp only [cmpf, Host.absf] at e
    rw [StableHlo.Predicate.bcast_scalar _ Cert.Pre_finite_inputs.Facts.h_S_] at e
    dsimp only [constant] at e
    change Ideal.cmp .olt (max (X i) (-(X i))) (Ideal.ofBits .f32 0x7F800000#32) = 1#1 at e
    rw [preDecode_ofBits_inf] at e
    simp only [Ideal.cmp, StableHlo.Predicate.ofBool_eq_one_iff, decide_eq_true_eq] at e
    exact preDecode_real_of_abs_lt_top _ e
  · -- Every element of the second reduced array is 1: `T i = 255`, or `0 ≤ T i` and `T i < 21` as signed words.
    have e := Host.reduce_andi_all _ _ _ _ _ hB i
    dsimp only [ori, andi, cmpi] at e
    simp only [StableHlo.Predicate.bcast_scalar _ Cert.Pre_finite_inputs.Facts.h_S_, constantI] at e
    rcases IntOp.ori_eq_one.1 e with e1 | e2
    · exact Or.inl (StableHlo.Predicate.cmpi_eq_iff.1 e1)
    · obtain ⟨e3, e4⟩ := IntOp.andi_eq_one.1 e2
      refine preDecode_labelOK_of_range _ (Or.inr ?_)
      simp only [IntOp.cmpi, StableHlo.Predicate.ofBool_eq_one_iff, BitVec.sle, BitVec.slt, decide_eq_true_eq] at e3 e4
      have z : (0#32 : BitVec 32).toInt = 0 := by decide
      have w : (21#32 : BitVec 32).toInt = 21 := by decide
      rw [z] at e3
      rw [w] at e4
      exact ⟨e3, e4⟩

end Cert.FocalTversky

end
-- ==== Proof.KPayload.lean ====
/-
  The kernel body's arithmetic read at an index, at the ideal values. One grid point holds a tile of 64 image rows
  of one batch element: logits `x0 : [1, 21, 64, 512]`, labels `x1 : [1, 64, 512]`. The body's two scalars are the
  tile's true-positive mass (each pixel's `pix`, summed over the 512 lanes of a row, then over the 64 rows) and
  its valid count (`vf` summed the same way); each is broadcast over the [1, 8, 128] output block and added to
  what the block held, which at the first tile of a batch element is the zero block.
-/
import proofs.«426206_j21749714387529_3_alg».proof.Proof.Gen.KernelIdeal.Skeleton
import proofs.«426206_j21749714387529_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.FocalTversky

/-- A [1,1,1] scalar broadcast over the [1,8,128] block reads the scalar everywhere. -/
theorem bcast111_apply (v : FVec Ideal S1x1x1 .f32) (y : S1x8x128.Idx) :
    broadcastTo S1x8x128 v broadcasts_S1x1x1_S1x8x128 y = v (ix3 (0 : Fin 1) (0 : Fin 1) (0 : Fin 1)) :=
  broadcastTo_apply v broadcasts_S1x1x1_S1x8x128 y (ix3 (0 : Fin 1) (0 : Fin 1) (0 : Fin 1)) fun a => by
    match a with
    | ⟨0, _⟩ => rfl
    | ⟨1, _⟩ => rfl
    | ⟨2, _⟩ => rfl

/-- The weight of a pixel: the comparison bit widened and read as a float is `vf` of the label. -/
theorem pay5_apply (x1 : Vec Ideal S1x64x512 .i32) (r : Fin 64) (w : Fin 512) :
    k0_pay5 (F := Ideal) x1 (ix3 (0 : Fin 1) r w) = vf (x1 (ix3 (0 : Fin 1) r w)) := by
  show (((BitVec.setWidth 32 (IntOp.cmpi .ne (x1 (ix3 (0 : Fin 1) r w)) 255#32)).toInt : ℝ) : EReal) = _
  unfold vf
  by_cases h : x1 (ix3 (0 : Fin 1) r w) = 255#32
  · rw [if_pos h, h]
    have e : BitVec.setWidth 32 (IntOp.cmpi .ne 255#32 255#32) = 0#32 := by decide
    rw [e]
    simp
  · rw [if_neg h]
    have e1 : IntOp.cmpi .ne (x1 (ix3 (0 : Fin 1) r w)) 255#32 = 1#1 := by
      show BitVec.ofBool (x1 (ix3 (0 : Fin 1) r w) != 255#32) = 1#1
      rw [show (x1 (ix3 (0 : Fin 1) r w) != 255#32) = true from bne_iff_ne.mpr h]
      rfl
    have e : BitVec.setWidth 32 (1#1) = 1#32 := by decide
    rw [e1, e]
    simp

/-- A sum over the 512 lanes of a row. -/
theorem laneSum_apply (g : FVec Ideal S1x64x512 .f32) (hφ : FKind.Formats .f32)
    (hacc : (0x00000000#32 : BitVec 32) = 0x00000000#32) (r : Fin 64) :
    multiReduction (F := Ideal) .add [2] S1x64 g 0x00000000#32 reduces_S1x64x512_S1x64 hφ hacc (ix2 (0 : Fin 1) r)
      = ∑ w : Fin 512, g (ix3 (0 : Fin 1) r w) := by
  refine (Ideal.multiReduction_add_single g 0x00000000#32 reduces_S1x64x512_S1x64 hφ hacc (ix2 (0 : Fin 1) r)).trans ?_
  refine Finset.sum_congr rfl fun w _ => congrArg g ?_
  funext a
  match a with
  | ⟨0, _⟩ => rfl
  | ⟨1, _⟩ => rfl
  | ⟨2, _⟩ => rfl

/-- A sum over the 64 rows of a column vector. -/
theorem rowSum_apply (g : FVec Ideal S1x64x1 .f32) (hφ : FKind.Formats .f32)
    (hacc : (0x00000000#32 : BitVec 32) = 0x00000000#32) :
    multiReduction (F := Ideal) .add [1] S1x1 g 0x00000000#32 reduces_S1x64x1_S1x1 hφ hacc (ix2 (0 : Fin 1) (0 : Fin 1))
      = ∑ r : Fin 64, g (ix3 (0 : Fin 1) r (0 : Fin 1)) := by
  refine (Ideal.multiReduction_add_single g 0x00000000#32 reduces_S1x64x1_S1x1 hφ hacc (ix2 (0 : Fin 1) (0 : Fin 1))).trans ?_
  refine Finset.sum_congr rfl fun r _ => congrArg g ?_
  funext a
  match a with
  | ⟨0, _⟩ => rfl
  | ⟨1, _⟩ => rfl
  | ⟨2, _⟩ => rfl

/-- A row vector [1,64] viewed as a column [1,64,1]. -/
theorem col_apply {α : Type} (v : S1x64.Idx → α) (r : Fin 64) :
    shapeCast S1x64x1 v shapeCasts_S1x64_S1x64x1 (ix3 (0 : Fin 1) r (0 : Fin 1)) = v (ix2 (0 : Fin 1) r) :=
  shapeCast_apply v shapeCasts_S1x64_S1x64x1 _ _ (by
    rw [Shape.rowMajor_val_three, Shape.rowMajor_val_two]
    show 0 * 64 + r.val = (0 * 64 + r.val) * 1 + 0
    omega)

/-- The two-stage sum of a [1,64,512] tile, at the scalar's one index. -/
theorem tileSum_apply (g : FVec Ideal S1x64x512 .f32) (hφ : FKind.Formats .f32)
    (hacc : (0x00000000#32 : BitVec 32) = 0x00000000#32) (y : S1x1x1.Idx) :
    shapeCast S1x1x1
        (multiReduction (F := Ideal) .add [1] S1x1
          (shapeCast S1x64x1 (multiReduction (F := Ideal) .add [2] S1x64 g 0x00000000#32 reduces_S1x64x512_S1x64 hφ hacc)
            shapeCasts_S1x64_S1x64x1)
          0x00000000#32 reduces_S1x64x1_S1x1 hφ hacc)
        shapeCasts_S1x1_S1x1x1 y
      = ∑ r : Fin 64, ∑ w : Fin 512, g (ix3 (0 : Fin 1) r w) := by
  obtain ⟨a, b, c, rfl⟩ : ∃ (a : Fin 1) (b : Fin 1) (c : Fin 1), y = ix3 a b c := ⟨y 0, y 1, y 2, eq_ix3 y⟩
  obtain rfl : b = 0 := Subsingleton.elim _ _
  obtain rfl : c = 0 := Subsingleton.elim _ _
  rw [shapeCast_ab_1ab_apply, rowSum_apply]
  refine Finset.sum_congr rfl fun r _ => ?_
  rw [col_apply, laneSum_apply]

/-- A sum over the 21 channels of a pixel. -/
theorem chanSum_apply (g : FVec Ideal S1x21x64x512 .f32) (hφ : FKind.Formats .f32)
    (hacc : (0x00000000#32 : BitVec 32) = 0x00000000#32) (r : Fin 64) (w : Fin 512) :
    multiReduction (F := Ideal) .add [1] S1x64x512 g 0x00000000#32 reduces_S1x21x64x512_S1x64x512 hφ hacc (ix3 (0 : Fin 1) r w)
      = ∑ c : Fin 21, g (ix4 (0 : Fin 1) c r w) := by
  refine (Ideal.multiReduction_add_single g 0x00000000#32 reduces_S1x21x64x512_S1x64x512 hφ hacc (ix3 (0 : Fin 1) r w)).trans ?_
  refine Finset.sum_congr rfl fun c _ => congrArg g ?_
  funext a
  match a with
  | ⟨0, _⟩ => rfl
  | ⟨1, _⟩ => rfl
  | ⟨2, _⟩ => rfl
  | ⟨3, _⟩ => rfl

/-- The largest of a pixel's 21 channels. -/
theorem chanMax_apply (g : FVec Ideal S1x21x64x512 .f32) (hφ : FKind.Formats .f32)
    (hacc : (0xFF800000#32 : BitVec 32) = 0xFF800000#32) (r : Fin 64) (w : Fin 512) :
    multiReduction (F := Ideal) .maximumf [1] S1x64x512 g 0xFF800000#32 reduces_S1x21x64x512_S1x64x512 hφ hacc (ix3 (0 : Fin 1) r w)
      = chanMax (fun c : Fin 21 => g (ix4 (0 : Fin 1) c r w)) := by
  refine (Ideal.multiReduction_maximumf_single g 0xFF800000#32 reduces_S1x21x64x512_S1x64x512 hφ hacc (ix3 (0 : Fin 1) r w)).trans ?_
  have e0 : FloatOps.ofBits (F := Ideal) .f32 0xFF800000#32 = (⊥ : EReal) := by
    show Ideal.ofBits .f32 0xFF800000#32 = ⊥
    simp [Ideal.ofBits, Ideal.ieee]
  have e1 : (g ∘ reduces_S1x21x64x512_S1x64x512.lift (ix3 (0 : Fin 1) r w)) = fun c : Fin 21 => g (ix4 (0 : Fin 1) c r w) := by
    funext c
    refine congrArg g ?_
    funext a
    match a with
    | ⟨0, _⟩ => rfl
    | ⟨1, _⟩ => rfl
    | ⟨2, _⟩ => rfl
    | ⟨3, _⟩ => rfl
  rw [e0, e1]
  rfl

/-- A [1,64,512] array given a unit channel axis and broadcast over the 21 channels reads the pixel's value. -/
theorem chanBcast_apply {α : Type} (v : S1x64x512.Idx → α) (c : Fin 21) (r : Fin 64) (w : Fin 512) :
    broadcastTo S1x21x64x512 (shapeCast S1x1x64x512 v shapeCasts_S1x64x512_S1x1x64x512)
        broadcasts_S1x1x64x512_S1x21x64x512 (ix4 (0 : Fin 1) c r w)
      = v (ix3 (0 : Fin 1) r w) := by
  refine (broadcastTo_apply _ broadcasts_S1x1x64x512_S1x21x64x512 (ix4 (0 : Fin 1) c r w)
    (ix4 (0 : Fin 1) (0 : Fin 1) r w) fun a => ?_).trans ?_
  · match a with
    | ⟨0, _⟩ => rfl
    | ⟨1, _⟩ => rfl
    | ⟨2, _⟩ => rfl
    | ⟨3, _⟩ => rfl
  · exact shapeCast_abc_1abc_apply v shapeCasts_S1x64x512_S1x1x64x512 0 0 r w

/-- The channel number along axis 1. -/
theorem chanIota_apply (c : Fin 21) (r : Fin 64) (w : Fin 512) :
    iota .tc S1x21x64x512 32 [1] iota_S1x21x64x512_d1_w32 (ix4 (0 : Fin 1) c r w) = BitVec.ofNat 32 c.val :=
  iota_single_apply .tc S1x21x64x512 32 1 iota_S1x21x64x512_d1_w32 (ix4 (0 : Fin 1) c r w)

/-- The pointwise exponential and the pointwise integer comparison, read at an index. -/
theorem vexp_apply {s : Shape} {φ : FTy} (a : FVec Ideal s φ) (i : s.Idx) : exp a i = Ideal.exp (a i) := rfl
theorem vcmpi_apply {s : Shape} {n : Nat} (p : CmpIPredicate) (a b : IVec s n) (i : s.Idx) :
    cmpi p a b i = IntOp.cmpi p (a i) (b i) := rfl

/-- Equality of two words as a bit. -/
theorem cmpi_eq_of_eq {a b : BitVec 32} (h : a = b) : IntOp.cmpi .eq a b = 1#1 := by
  show BitVec.ofBool (a == b) = 1#1
  rw [show (a == b) = true from beq_iff_eq.mpr h]
  rfl
theorem cmpi_eq_of_ne {a b : BitVec 32} (h : ¬a = b) : IntOp.cmpi .eq a b = 0#1 := by
  show BitVec.ofBool (a == b) = 0#1
  rw [show (a == b) = false from beq_eq_false_iff_ne.mpr h]
  rfl

/-- The shifted exponential of channel `c` of a pixel. -/
theorem ex_apply (x0 : FVec Ideal S1x21x64x512 .f32) (hφ : FKind.Formats .f32)
    (hacc : (0xFF800000#32 : BitVec 32) = 0xFF800000#32) (c : Fin 21) (r : Fin 64) (w : Fin 512) :
    exp (subf x0
        (broadcastTo S1x21x64x512
          (shapeCast S1x1x64x512
            (multiReduction (F := Ideal) .maximumf [1] S1x64x512 x0 0xFF800000#32 reduces_S1x21x64x512_S1x64x512 hφ hacc)
            shapeCasts_S1x64x512_S1x1x64x512)
          broadcasts_S1x1x64x512_S1x21x64x512)) (ix4 (0 : Fin 1) c r w)
      = ex (fun c : Fin 21 => x0 (ix4 (0 : Fin 1) c r w)) c := by
  rw [vexp_apply, subf_apply, chanBcast_apply, chanMax_apply]
  rfl

/-- The one-hot term of channel `c`: the shifted exponential where the channel number is the label, else zero. -/
theorem onehot_apply (e : FVec Ideal S1x21x64x512 .f32) (x1 : IVec S1x64x512 32) (c : Fin 21) (r : Fin 64) (w : Fin 512) :
    select
        (cmpi .eq (iota .tc S1x21x64x512 32 [1] iota_S1x21x64x512_d1_w32)
          (broadcastTo S1x21x64x512 (shapeCast S1x1x64x512 x1 shapeCasts_S1x64x512_S1x1x64x512)
            broadcasts_S1x1x64x512_S1x21x64x512))
        e (broadcast S1x21x64x512 (FloatOps.ofBits (F := Ideal) .f32 0x00000000#32)) (ix4 (0 : Fin 1) c r w)
      = if BitVec.ofNat 32 c.val = x1 (ix3 (0 : Fin 1) r w) then e (ix4 (0 : Fin 1) c r w) else 0 := by
  rw [select_apply, vcmpi_apply, chanIota_apply, chanBcast_apply, broadcast_apply]
  by_cases h : BitVec.ofNat 32 c.val = x1 (ix3 (0 : Fin 1) r w)
  · rw [cmpi_eq_of_eq h, select_one, if_pos h]
  · rw [cmpi_eq_of_ne h, select_zero, if_neg h]
    exact Ideal.ofBits_zero_f32

/-- The tile's true-positive mass, at the scalar's one index. -/
theorem pay6_apply (x0 : Vec Ideal S1x21x64x512 .f32) (x1 : Vec Ideal S1x64x512 .i32) (y : S1x1x1.Idx) :
    k0_pay6 (F := Ideal) x0 x1 y
      = ∑ r : Fin 64, ∑ w : Fin 512, pix (fun c : Fin 21 => x0 (ix4 (0 : Fin 1) c r w)) (x1 (ix3 (0 : Fin 1) r w)) := by
  unfold k0_pay6
  refine (tileSum_apply _ _ _ y).trans ?_
  refine Finset.sum_congr rfl fun r _ => Finset.sum_congr rfl fun w _ => ?_
  rw [mulf_apply, divf_apply, pay5_apply, shapeCast_shapeCast, chanSum_apply, chanSum_apply]
  unfold pix num den
  refine congrArg₂ (· * ·) (congrArg₂ Ideal.div (Finset.sum_congr rfl fun c _ => ?_) (Finset.sum_congr rfl fun c _ => ?_)) rfl
  · rw [onehot_apply, ex_apply]
  · rw [ex_apply]

/-- The tile's valid count. -/
theorem pay7_apply (x1 : Vec Ideal S1x64x512 .i32) (y : S1x1x1.Idx) :
    k0_pay7 (F := Ideal) x1 y = ∑ r : Fin 64, ∑ w : Fin 512, vf (x1 (ix3 (0 : Fin 1) r w)) := by
  unfold k0_pay7
  refine (tileSum_apply (k0_pay5 (F := Ideal) x1) _ _ y).trans ?_
  exact Finset.sum_congr rfl fun r _ => Finset.sum_congr rfl fun w _ => pay5_apply x1 r w

/-- The update of output block 2: what it held plus the broadcast scalar. -/
theorem pay1_apply (v29 : FVec Ideal S1x1x1 .f32) (v35 : FVec Ideal S1x8x128 .f32) (y : S1x8x128.Idx) :
    k0_pay1 (F := Ideal) v29 v35 y = v35 y + v29 (ix3 (0 : Fin 1) (0 : Fin 1) (0 : Fin 1)) := by
  unfold k0_pay1
  rw [addf_apply, shapeCast_self, bcast111_apply]

/-- The update of output block 3. -/
theorem pay2_apply (v33 : FVec Ideal S1x1x1 .f32) (v40 : Vec Ideal S1x8x128 .f32) (y : S1x8x128.Idx) :
    k0_pay2 (F := Ideal) v33 v40 y = v40 y + v33 (ix3 (0 : Fin 1) (0 : Fin 1) (0 : Fin 1)) := by
  unfold k0_pay2
  rw [addf_apply, shapeCast_self, shapeCast_self, bcast111_apply]

/-- The two reset blocks are zero, and the re-read of block 2 is the block. -/
theorem pay3_apply (y : S1x8x128.Idx) : k0_pay3 (F := Ideal) y = 0 := by
  unfold k0_pay3
  rw [broadcast_apply]
  exact Ideal.ofBits_zero_f32
theorem pay4_apply (y : S1x8x128.Idx) : k0_pay4 (F := Ideal) y = 0 := by
  unfold k0_pay4
  rw [broadcast_apply]
  exact Ideal.ofBits_zero_f32
theorem pay8_apply (v34 : Vec Ideal S1x8x128 .f32) (y : S1x8x128.Idx) : k0_pay8 (F := Ideal) v34 y = v34 y := by
  unfold k0_pay8
  rw [shapeCast_self]

end Cert.KernelIdeal.Hand

end
-- ==== Proof.KValue.lean ====
/-
  What the two result arrays hold after the region. Grid point `t = 8 b + j` is tile `j` of batch element `b`; its
  output block is block `(b, 0, 0)` of each [8, 8, 128] array, reset at `j = 0`, carried from tile to tile, and
  written back once the last tile of `b` has run. So every entry `(b, s, l)` of the first array ends at the sum over
  the 8 tiles of the tile's true-positive mass, which is `tpTiled` of the argument arrays at `b`; the second
  likewise at the valid count `nvTiled`.
-/
import proofs.«426206_j21749714387529_3_alg».proof.Proof.Gen.KernelIdeal.Frame
import proofs.«426206_j21749714387529_3_alg».proof.Proof.KPayload
import proofs.«426206_j21749714387529_3_alg».proof.Proof.Spec
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.FocalTversky

namespace KV

section Pieces
variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile leaves in the first block what the block held plus the tile's true-positive mass. -/
theorem out_B_2 (c : Dev nD) (i : grid0.Coords) (a2 : Memref sig .tc .vmem S1x21x64x512 .f32) (h2 : a2.IsWhole)
    (a3 : Memref sig .tc .vmem S1x64x512 .i32) (h3 : a3.IsWhole) (a4 : Memref sig .tc .vmem S1x8x128 .f32) (h4 : a4.IsWhole)
    (a5 : Memref sig .tc .vmem S1x8x128 .f32) (h5 : a5.IsWhole) (hc : ¬cond0_0 i)
    (x0 : Vec F S1x21x64x512 .f32) (x1 : Vec F S1x64x512 .i32) (xo2 xo3 : Vec F S1x8x128 .f32) :
    out0_B_2 c i a2 h2 a3 h3 a4 h4 a5 h5 hc x0 x1 xo2 xo3 = k0_pay1 (k0_pay6 x0 x1) (k0_pay8 xo2) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x128) hz3, View.ld_unit_zero (S := S1x64x512) hz3, View.ld_unit_zero (S := S1x21x64x512) hz4]

/-- … and in the second what it held plus the tile's valid count. -/
theorem out_B_3 (c : Dev nD) (i : grid0.Coords) (a2 : Memref sig .tc .vmem S1x21x64x512 .f32) (h2 : a2.IsWhole)
    (a3 : Memref sig .tc .vmem S1x64x512 .i32) (h3 : a3.IsWhole) (a4 : Memref sig .tc .vmem S1x8x128 .f32) (h4 : a4.IsWhole)
    (a5 : Memref sig .tc .vmem S1x8x128 .f32) (h5 : a5.IsWhole) (hc : ¬cond0_0 i)
    (x0 : Vec F S1x21x64x512 .f32) (x1 : Vec F S1x64x512 .i32) (xo2 xo3 : Vec F S1x8x128 .f32) :
    out0_B_3 c i a2 h2 a3 h3 a4 h4 a5 h5 hc x0 x1 xo2 xo3 = k0_pay2 (k0_pay7 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1x8x128) hz3, View.ld_unit_zero (S := S1x64x512) hz3, View.ld_unit_zero (S := S1x21x64x512) hz4]

/-- The first tile of a batch element resets the first block, then adds its mass to the zero block it reads back. -/
theorem out_A_2 (c : Dev nD) (i : grid0.Coords) (a2 : Memref sig .tc .vmem S1x21x64x512 .f32) (h2 : a2.IsWhole)
    (a3 : Memref sig .tc .vmem S1x64x512 .i32) (h3 : a3.IsWhole) (a4 : Memref sig .tc .vmem S1x8x128 .f32) (h4 : a4.IsWhole)
    (a5 : Memref sig .tc .vmem S1x8x128 .f32) (h5 : a5.IsWhole) (hc : cond0_0 i)
    (x0 : Vec F S1x21x64x512 .f32) (x1 : Vec F S1x64x512 .i32) :
    out0_A_2 c i a2 h2 a3 h3 a4 h4 a5 h5 hc x0 x1 = k0_pay1 (k0_pay6 x0 x1) (k0_pay8 k0_pay3) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3]
  simp only [View.readAt_eq_ld, h2.read_unread, h3.read_unread, h4.read_unread, h5.read_unread,
    View.readCov_unit_zero (S := S1x8x128) _ hz3,
    View.ld_unit_zero (S := S1x8x128) hz3, View.ld_unit_zero (S := S1x64x512) hz3, View.ld_unit_zero (S := S1x21x64x512) hz4]

/-- … and likewise the second block with its valid count. -/
theorem out_A_3 (c : Dev nD) (i : grid0.Coords) (a2 : Memref sig .tc .vmem S1x21x64x512 .f32) (h2 : a2.IsWhole)
    (a3 : Memref sig .tc .vmem S1x64x512 .i32) (h3 : a3.IsWhole) (a4 : Memref sig .tc .vmem S1x8x128 .f32) (h4 : a4.IsWhole)
    (a5 : Memref sig .tc .vmem S1x8x128 .f32) (h5 : a5.IsWhole) (hc : cond0_0 i)
    (x0 : Vec F S1x21x64x512 .f32) (x1 : Vec F S1x64x512 .i32) :
    out0_A_3 c i a2 h2 a3 h3 a4 h4 a5 h5 hc x0 x1 = k0_pay2 (k0_pay7 x1) k0_pay4 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3]
  simp only [View.readAt_eq_ld, h2.read_unread, h3.read_unread, h4.read_unread, h5.read_unread,
    View.readCov_unit_zero (S := S1x8x128) _ hz3,
    View.ld_unit_zero (S := S1x8x128) hz3, View.ld_unit_zero (S := S1x64x512) hz3, View.ld_unit_zero (S := S1x21x64x512) hz4]

end Pieces

end KV

variable (m : (ℓ : Loc nD τ sig) → Buf (Elt Ideal) ℓ) (ρ : Dev nD → PrngReg)

namespace KV

/-! ## The grid: point `t` is tile `t % 8` of batch element `t / 8` -/

theorem lt64 (t : Fin cfg0.N) : t.val < 64 := lt_of_lt_of_eq t.isLt (show cfg0.N = 64 from N_0)

/-- The batch element and the tile of point `k`. -/
def bN (k : ℕ) : Fin 8 := ⟨k / 8 % 8, Nat.mod_lt _ (by norm_num)⟩
def jN (k : ℕ) : Fin 8 := ⟨k % 8, Nat.mod_lt _ (by norm_num)⟩

/-- The four windows' block indices at a point, decided once over the grid. -/
theorem idx0 : ∀ t : Fin grid0.N, win0_0.index t 0 = t.val / 8 ∧ win0_0.index t 1 = 0 ∧ win0_0.index t 2 = t.val % 8 ∧ win0_0.index t 3 = 0 := by
  decide +kernel
theorem idx1 : ∀ t : Fin grid0.N, win0_1.index t 0 = t.val / 8 ∧ win0_1.index t 1 = t.val % 8 ∧ win0_1.index t 2 = 0 := by
  decide +kernel
theorem idx2 : ∀ t : Fin grid0.N, win0_2.index t 0 = t.val / 8 ∧ win0_2.index t 1 = 0 ∧ win0_2.index t 2 = 0 := by
  decide +kernel
theorem idx3 : ∀ t : Fin grid0.N, win0_3.index t 0 = t.val / 8 ∧ win0_3.index t 1 = 0 ∧ win0_3.index t 2 = 0 := by
  decide +kernel

/-- The argument arrays and the two input blocks at a point, at their literal types. -/
abbrev Xarr (c : Dev nD) : Logits := V m c main_arg0
abbrev Tarr (c : Dev nD) : FocalTversky.Labels := V m c main_arg1
abbrev xblk (c : Dev nD) (t : Fin cfg0.N) : Vec Ideal S1x21x64x512 .f32 := iblk m c 0 t
abbrev tblk (c : Dev nD) (t : Fin cfg0.N) : Vec Ideal S1x64x512 .i32 := iblk m c 1 t

/-- The logits block at a point reads the logits array at the point's batch element and tile rows. -/
theorem xblk_apply (c : Dev nD) (t : Fin cfg0.N) (ch : Fin 21) (r : Fin 64) (w : Fin 512) :
    xblk m c t (ix4 (0 : Fin 1) ch r w) = Xarr m c (ix4 (bN t.val) ch (rowOf (jN t.val) r) w) := by
  have hN := lt64 t
  obtain ⟨i0, i1, i2, i3⟩ := idx0 t
  unfold xblk iblk
  rw [View.read_apply]
  show V m c main_arg0 _ = V m c main_arg0 _
  congr 1
  funext a
  apply Fin.ext
  match a with
  | ⟨0, _⟩ => show win0_0.index t 0 * 1 + 1 * 0 = t.val / 8 % 8; rw [i0]; omega
  | ⟨1, _⟩ => show win0_0.index t 1 * 21 + 1 * ch.val = ch.val; rw [i1]; omega
  | ⟨2, _⟩ => show win0_0.index t 2 * 64 + 1 * r.val = 64 * (t.val % 8) + r.val; rw [i2]; omega
  | ⟨3, _⟩ => show win0_0.index t 3 * 512 + 1 * w.val = w.val; rw [i3]; omega

/-- The labels block likewise. -/
theorem tblk_apply (c : Dev nD) (t : Fin cfg0.N) (r : Fin 64) (w : Fin 512) :
    tblk m c t (ix3 (0 : Fin 1) r w) = Tarr m c (ix3 (bN t.val) (rowOf (jN t.val) r) w) := by
  have hN := lt64 t
  obtain ⟨i0, i1, i2⟩ := idx1 t
  unfold tblk iblk
  rw [View.read_apply]
  show V m c main_arg1 _ = V m c main_arg1 _
  congr 1
  funext a
  apply Fin.ext
  match a with
  | ⟨0, _⟩ => show win0_1.index t 0 * 1 + 1 * 0 = t.val / 8 % 8; rw [i0]; omega
  | ⟨1, _⟩ => show win0_1.index t 1 * 64 + 1 * r.val = 64 * (t.val % 8) + r.val; rw [i1]; omega
  | ⟨2, _⟩ => show win0_1.index t 2 * 512 + 1 * w.val = w.val; rw [i2]; omega

/-! ## The running sum over the tiles of one batch element -/

/-- A quantity `f` of the points, summed from the first tile of point `n`'s batch element through `n`. -/
def acc (f : ℕ → EReal) (n : ℕ) : EReal := ∑ s ∈ Finset.range (n % 8 + 1), f (8 * (n / 8) + s)

theorem acc_first (f : ℕ → EReal) (n : ℕ) (h : n % 8 = 0) : acc f n = f n := by
  unfold acc
  rw [h, Finset.sum_range_one]
  congr 1
  omega

theorem acc_step (f : ℕ → EReal) (n : ℕ) (h : ¬n % 8 = 0) : acc f n = acc f (n - 1) + f n := by
  obtain ⟨k, rfl⟩ : ∃ k, n = k + 1 := ⟨n - 1, by omega⟩
  have e1 : (k + 1) % 8 = k % 8 + 1 := by omega
  have e2 : (k + 1) / 8 = k / 8 := by omega
  unfold acc
  rw [Nat.add_sub_cancel, e1, e2, Finset.sum_range_succ, show 8 * (k / 8) + (k % 8 + 1) = k + 1 by omega]

theorem acc_last (f : ℕ → EReal) (n : ℕ) (h : n % 8 = 7) : acc f n = ∑ j : Fin 8, f (8 * (n / 8) + j.val) := by
  unfold acc
  rw [h, Finset.sum_range]

/-- The true-positive mass and the valid count of point `k`'s tile. -/
def tileTP (X : Logits) (T : FocalTversky.Labels) (k : ℕ) : EReal :=
  ∑ r : Fin 64, ∑ w : Fin 512, pixAt X T (bN k) (rowOf (jN k) r) w
def tileNV (T : FocalTversky.Labels) (k : ℕ) : EReal :=
  ∑ r : Fin 64, ∑ w : Fin 512, vfAt T (bN k) (rowOf (jN k) r) w

/-- The body's two scalars at a point are its tile's mass and count. -/
theorem pointTP (c : Dev nD) (t : Fin cfg0.N) :
    k0_pay6 (F := Ideal) (xblk m c t) (tblk m c t) (ix3 (0 : Fin 1) (0 : Fin 1) (0 : Fin 1))
      = tileTP (Xarr m c) (Tarr m c) t.val := by
  rw [pay6_apply (xblk m c t) (tblk m c t)]
  unfold tileTP
  refine Finset.sum_congr rfl fun r _ => Finset.sum_congr rfl fun w _ => ?_
  exact congrArg₂ pix (funext fun ch => xblk_apply m c t ch r w) (tblk_apply m c t r w)

theorem pointNV (c : Dev nD) (t : Fin cfg0.N) :
    k0_pay7 (F := Ideal) (tblk m c t) (ix3 (0 : Fin 1) (0 : Fin 1) (0 : Fin 1)) = tileNV (Tarr m c) t.val := by
  rw [pay7_apply (tblk m c t)]
  unfold tileNV
  refine Finset.sum_congr rfl fun r _ => Finset.sum_congr rfl fun w _ => ?_
  exact congrArg vf (tblk_apply m c t r w)

/-- A whole batch element: the eight tiles' masses sum to the tiled sum. -/
theorem sum_tileTP (X : Logits) (T : FocalTversky.Labels) (q : ℕ) (hq : q < 8) :
    ∑ j : Fin 8, tileTP X T (8 * q + j.val) = tpTiled X T ⟨q, hq⟩ := by
  unfold tpTiled sumTiled tileTP
  refine Finset.sum_congr rfl fun j _ => ?_
  have hb : bN (8 * q + j.val) = ⟨q, hq⟩ := Fin.ext (by show (8 * q + j.val) / 8 % 8 = q; have := j.isLt; omega)
  have hj : jN (8 * q + j.val) = j := Fin.ext (by show (8 * q + j.val) % 8 = j.val; have := j.isLt; omega)
  rw [hb, hj]

theorem sum_tileNV (T : FocalTversky.Labels) (q : ℕ) (hq : q < 8) :
    ∑ j : Fin 8, tileNV T (8 * q + j.val) = nvTiled T ⟨q, hq⟩ := by
  unfold nvTiled sumTiled tileNV
  refine Finset.sum_congr rfl fun j _ => ?_
  have hb : bN (8 * q + j.val) = ⟨q, hq⟩ := Fin.ext (by show (8 * q + j.val) / 8 % 8 = q; have := j.isLt; omega)
  have hj : jN (8 * q + j.val) = j := Fin.ext (by show (8 * q + j.val) % 8 = j.val; have := j.isLt; omega)
  rw [hb, hj]

/-! ## What the two output blocks hold after each point -/

/-- After point `n` every entry of the first block is the true-positive mass of the tiles run so far of `n`'s batch
    element: the first tile starts from the zero block, each later one adds to what the tile before left. -/
theorem outs1_eq (c : Dev nD) (n : ℕ) : ∀ (h : n < cfg0.N) (y : S1x8x128.Idx),
    ((outsAt0 m c n h).1 : Vec Ideal S1x8x128 .f32) y = acc (tileTP (Xarr m c) (Tarr m c)) n := by
  induction n using Nat.strong_induction_on with
  | _ n ih =>
    intro h y
    by_cases h0 : n % 8 = 0
    · rw [outsAt0_A m c ⟨n, h⟩ h0]
      dsimp only
      refine (congrFun (out_A_2 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr h0)
        (iblk m c 0 ⟨n, h⟩) (iblk m c 1 ⟨n, h⟩)) y).trans ?_
      rw [pay1_apply, pay8_apply, pay3_apply, zero_add, acc_first _ _ h0]
      exact pointTP m c ⟨n, h⟩
    · rw [outsAt0_B m c ⟨n, h⟩ h0]
      dsimp only
      refine (congrFun (out_B_2 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) (fun hh => h0 ((hcond0_0 ⟨n, h⟩).mp hh))
        (iblk m c 0 ⟨n, h⟩) (iblk m c 1 ⟨n, h⟩) _ _) y).trans ?_
      rw [pay1_apply, pay8_apply, ih (n - 1) (by omega), acc_step _ _ h0]
      exact congrArg _ (pointTP m c ⟨n, h⟩)

/-- … and every entry of the second block their valid count. -/
theorem outs2_eq (c : Dev nD) (n : ℕ) : ∀ (h : n < cfg0.N) (y : S1x8x128.Idx),
    ((outsAt0 m c n h).2 : Vec Ideal S1x8x128 .f32) y = acc (tileNV (Tarr m c)) n := by
  induction n using Nat.strong_induction_on with
  | _ n ih =>
    intro h y
    by_cases h0 : n % 8 = 0
    · rw [outsAt0_A m c ⟨n, h⟩ h0]
      dsimp only
      refine (congrFun (out_A_3 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr h0)
        (iblk m c 0 ⟨n, h⟩) (iblk m c 1 ⟨n, h⟩)) y).trans ?_
      rw [pay2_apply, pay4_apply, zero_add, acc_first _ _ h0]
      exact pointNV m c ⟨n, h⟩
    · rw [outsAt0_B m c ⟨n, h⟩ h0]
      dsimp only
      refine (congrFun (out_B_3 (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) (fun hh => h0 ((hcond0_0 ⟨n, h⟩).mp hh))
        (iblk m c 0 ⟨n, h⟩) (iblk m c 1 ⟨n, h⟩) _ _) y).trans ?_
      rw [pay2_apply, ih (n - 1) (by omega), acc_step _ _ h0]
      exact congrArg _ (pointNV m c ⟨n, h⟩)

/-! ## The two result arrays -/

/-- The last tile of a batch element writes back a block every entry of which is the batch element's tiled sum. -/
theorem flushed2_eq (c : Dev nD) (t : Fin cfg0.N) (hf : (cfg0.win 2).flush t = true) :
    (dats m 0 c).flushed 2 t
      = ((cfg0.win 2).blk t).view.read (Elt Ideal) (fun i => tpTiled (V m c main_arg0) (V m c main_arg1) (i 0)) := by
  have h7 : t.val % 8 = 7 := (flush0_2 t).mp hf
  have hN := lt64 t
  obtain ⟨i0, i1, i2⟩ := idx2 t
  show (cfg0.win 2).cut (grid0.coords t) ((dats m 0 c).after 2 t) = _
  rw [after0_2]
  funext y
  rw [View.read_apply]
  show (outsAt0 m c t.val t.isLt).1 _ = tpTiled (Xarr m c) (Tarr m c) _
  rw [outs1_eq m c t.val t.isLt, acc_last _ _ h7, sum_tileTP _ _ (t.val / 8) (by omega)]
  congr 1
  apply Fin.ext
  show t.val / 8 = win0_2.index t 0 * 1 + 1 * (y 0).val
  have hy : (y 0 : ℕ) < 1 := (y 0).isLt
  rw [i0]; omega

theorem flushed3_eq (c : Dev nD) (t : Fin cfg0.N) (hf : (cfg0.win 3).flush t = true) :
    (dats m 0 c).flushed 3 t
      = ((cfg0.win 3).blk t).view.read (Elt Ideal) (fun i => nvTiled (V m c main_arg1) (i 0)) := by
  have h7 : t.val % 8 = 7 := (flush0_3 t).mp hf
  have hN := lt64 t
  obtain ⟨i0, i1, i2⟩ := idx3 t
  show (cfg0.win 3).cut (grid0.coords t) ((dats m 0 c).after 3 t) = _
  rw [after0_3]
  funext y
  rw [View.read_apply]
  show (outsAt0 m c t.val t.isLt).2 _ = nvTiled (Tarr m c) _
  rw [outs2_eq m c t.val t.isLt, acc_last _ _ h7, sum_tileNV _ (t.val / 8) (by omega)]
  congr 1
  apply Fin.ext
  show t.val / 8 = win0_3.index t 0 * 1 + 1 * (y 0).val
  have hy : (y 0 : ℕ) < 1 := (y 0).isLt
  rw [i0]; omega

/-- The last tile's point of batch element `b`. -/
def lastPt (b : ℕ) (hb : b < 8) : Fin cfg0.N := ⟨8 * b + 7, by rw [show cfg0.N = 64 from N_0]; omega⟩

end KV

open KV
/-- The first result array: every entry of row block `b` is `b`'s true-positive mass. -/
theorem arr2_eq (c : Dev nD) :
    (dats m 0 c).arrAt 2 cfg0.N = fun i => tpTiled (V m c main_arg0) (V m c main_arg1) (i 0) :=
  (dats m 0 c).arrAt_eq_of_cover 2 _ (flushed2_eq m c) fun i => by
    have h0 : (i 0 : ℕ) < 8 := (i 0).isLt
    have h1 : (i 1 : ℕ) < 8 := (i 1).isLt
    have h2 : (i 2 : ℕ) < 128 := (i 2).isLt
    obtain ⟨i0, i1, i2⟩ := idx2 (lastPt (i 0 : ℕ) h0)
    have hv : (lastPt (i 0 : ℕ) h0).val = 8 * (i 0 : ℕ) + 7 := rfl
    refine ⟨lastPt (i 0 : ℕ) h0, (flush0_2 _).mpr (by rw [hv]; omega), ?_⟩
    show i ∈ ((View.whole main_v0_0).slice (win0_2.rect (lastPt (i 0 : ℕ) h0))).set
    rw [View.set_slice_whole, Rect.mem_set_unit]
    intro a
    match a with
    | ⟨0, _⟩ =>
      show win0_2.index (lastPt (i 0 : ℕ) h0) 0 * 1 ≤ (i 0 : ℕ) ∧ (i 0 : ℕ) < win0_2.index (lastPt (i 0 : ℕ) h0) 0 * 1 + 1
      rw [i0, hv]; omega
    | ⟨1, _⟩ =>
      show win0_2.index (lastPt (i 0 : ℕ) h0) 1 * 8 ≤ (i 1 : ℕ) ∧ (i 1 : ℕ) < win0_2.index (lastPt (i 0 : ℕ) h0) 1 * 8 + 8
      rw [i1]; omega
    | ⟨2, _⟩ =>
      show win0_2.index (lastPt (i 0 : ℕ) h0) 2 * 128 ≤ (i 2 : ℕ) ∧ (i 2 : ℕ) < win0_2.index (lastPt (i 0 : ℕ) h0) 2 * 128 + 128
      rw [i2]; omega

/-- The second: every entry of row block `b` is `b`'s valid count. -/
theorem arr3_eq (c : Dev nD) :
    (dats m 0 c).arrAt 3 cfg0.N = fun i => nvTiled (V m c main_arg1) (i 0) :=
  (dats m 0 c).arrAt_eq_of_cover 3 _ (flushed3_eq m c) fun i => by
    have h0 : (i 0 : ℕ) < 8 := (i 0).isLt
    have h1 : (i 1 : ℕ) < 8 := (i 1).isLt
    have h2 : (i 2 : ℕ) < 128 := (i 2).isLt
    obtain ⟨i0, i1, i2⟩ := idx3 (lastPt (i 0 : ℕ) h0)
    have hv : (lastPt (i 0 : ℕ) h0).val = 8 * (i 0 : ℕ) + 7 := rfl
    refine ⟨lastPt (i 0 : ℕ) h0, (flush0_3 _).mpr (by rw [hv]; omega), ?_⟩
    show i ∈ ((View.whole main_v0_1).slice (win0_3.rect (lastPt (i 0 : ℕ) h0))).set
    rw [View.set_slice_whole, Rect.mem_set_unit]
    intro a
    match a with
    | ⟨0, _⟩ =>
      show win0_3.index (lastPt (i 0 : ℕ) h0) 0 * 1 ≤ (i 0 : ℕ) ∧ (i 0 : ℕ) < win0_3.index (lastPt (i 0 : ℕ) h0) 0 * 1 + 1
      rw [i0, hv]; omega
    | ⟨1, _⟩ =>
      show win0_3.index (lastPt (i 0 : ℕ) h0) 1 * 8 ≤ (i 1 : ℕ) ∧ (i 1 : ℕ) < win0_3.index (lastPt (i 0 : ℕ) h0) 1 * 8 + 8
      rw [i1]; omega
    | ⟨2, _⟩ =>
      show win0_3.index (lastPt (i 0 : ℕ) h0) 2 * 128 ≤ (i 2 : ℕ) ∧ (i 2 : ℕ) < win0_3.index (lastPt (i 0 : ℕ) h0) 2 * 128 + 128
      rw [i2]; omega

end Cert.KernelIdeal.Hand

end
-- ==== Proof.KTail.lean ====
/-
  The kernel program's run, read. After the region @main slices entry `(b, 0, 0)` out of each result array, giving
  the vectors `TP` and `NV` over the 8 batch elements, and applies the chain `loss` to them with `1 - tversky`
  clamped at zero before the power.
-/
import proofs.«426206_j21749714387529_3_alg».proof.Proof.Gen.KernelIdeal.Frame
import proofs.«426206_j21749714387529_3_alg».proof.Proof.KValue
import proofs.«426206_j21749714387529_3_alg».proof.Proof.Spec
import Idealize.ShloMosaic.Lib.Pipeline.Value
import Idealize.ShloMosaic.Lib.StableHlo.Run
import Idealize.ShloMosaic.Lib.IdealHost
import Idealize.ShloMosaic.Lib.ValueIdxRank1
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.FocalTversky

/-- Entry `b` of the vector cut out of a result array is the array's entry `(b, 0, 0)`. -/
theorem slice_read (X : S8x8x128.Idx → EReal) (b : Fin 8) :
    shapeCast S8 (extractStridedSlice S8x1x1 ![0, 0, 0] X slices_S8x8x128_S8x1x1_0_0_0) shapeCasts_S8x1x1_S8 (ix1 b)
      = X (ix3 b 0 0) := by
  refine (shapeCast_apply _ shapeCasts_S8x1x1_S8 (ix1 b) (ix3 b 0 0) ?_).trans ?_
  · rw [Shape.rowMajor_val_three, Shape.rowMajor_val_one]
    show (b.val * 1 + 0) * 1 + 0 = b.val
    omega
  · refine extractStridedSlice_apply _ X _ (ix3 b 0 0) (ix3 b 0 0) fun a => ?_
    match a with
    | ⟨0, _⟩ => show b.val = 0 + b.val; omega
    | ⟨1, _⟩ => rfl
    | ⟨2, _⟩ => rfl

/-- The chain from the two result arrays to the program's result: entry `(b, 0, 0)` of each as a vector over the 8 batch
    elements, the Tversky index, one minus it clamped at zero, the power, the sum from zero and the division by 8. -/
def tailOf (X2 X3 : S8x8x128.Idx → EReal) : S_.Idx → EReal :=
  Host.divf (F := Ideal) (φ := .f32)
    (Host.reduceAdd (F := Ideal) (φ := .f32)
      (Host.powf (F := Ideal) (φ := .f32)
        (maximumf (F := Ideal) (φ := .f32)
          (subf (F := Ideal) (φ := .f32) (broadcastInDim S8 ![] bcast_S_S8 (constant (F := Ideal) S_ .f32 0x3F800000#32))
            (Host.divf (F := Ideal) (φ := .f32)
              (addf (F := Ideal) (φ := .f32)
                (fun i => shapeCast S8 (extractStridedSlice S8x1x1 ![0, 0, 0] X2 slices_S8x8x128_S8x1x1_0_0_0) shapeCasts_S8x1x1_S8 i)
                (broadcastInDim S8 ![] bcast_S_S8 (constant (F := Ideal) S_ .f32 0x3F800000#32)))
              (addf (F := Ideal) (φ := .f32)
                (addf (F := Ideal) (φ := .f32)
                  (addf (F := Ideal) (φ := .f32)
                    (fun i => shapeCast S8 (extractStridedSlice S8x1x1 ![0, 0, 0] X2 slices_S8x8x128_S8x1x1_0_0_0) shapeCasts_S8x1x1_S8 i)
                    (mulf (F := Ideal) (φ := .f32) (broadcastInDim S8 ![] bcast_S_S8 (constant (F := Ideal) S_ .f32 0x3F333333#32))
                      (subf (F := Ideal) (φ := .f32)
                        (fun i => shapeCast S8 (extractStridedSlice S8x1x1 ![0, 0, 0] X3 slices_S8x8x128_S8x1x1_0_0_0) shapeCasts_S8x1x1_S8 i)
                        (fun i => shapeCast S8 (extractStridedSlice S8x1x1 ![0, 0, 0] X2 slices_S8x8x128_S8x1x1_0_0_0) shapeCasts_S8x1x1_S8 i))))
                  (mulf (F := Ideal) (φ := .f32) (broadcastInDim S8 ![] bcast_S_S8 (constant (F := Ideal) S_ .f32 0x3E99999A#32))
                    (subf (F := Ideal) (φ := .f32)
                      (fun i => shapeCast S8 (extractStridedSlice S8x1x1 ![0, 0, 0] X3 slices_S8x8x128_S8x1x1_0_0_0) shapeCasts_S8x1x1_S8 i)
                      (fun i => shapeCast S8 (extractStridedSlice S8x1x1 ![0, 0, 0] X2 slices_S8x8x128_S8x1x1_0_0_0) shapeCasts_S8x1x1_S8 i))))
                (broadcastInDim S8 ![] bcast_S_S8 (constant (F := Ideal) S_ .f32 0x3F800000#32)))))
          (broadcastInDim S8 ![] bcast_S_S8 (constant (F := Ideal) S_ .f32 0x00000000#32)))
        (broadcastInDim S8 ![] bcast_S_S8 (constant (F := Ideal) S_ .f32 0x3FAAAAAB#32)))
      (constant (F := Ideal) S_ .f32 0x00000000#32) reducesTo_S8_S_d0 h_S_)
    (constant (F := Ideal) S_ .f32 0x41000000#32)

/-- The host's power at an index is the ideal power of the elements. -/
theorem hostPowf_apply {s : Shape} {φ : FTy} (a b : FVec Ideal s φ) (i : s.Idx) :
    Host.powf a b i = Ideal.pow (a i) (b i) := rfl

/-- Read at its one index the chain is `loss` with the clamp, of the arrays' entries `(b, 0, 0)`: the sum over the 8 entries
    of the vector is the sum over the batch elements, entry `b` is the focal term of the pair at `b`, and the literals are
    the same words on both sides. -/
theorem tailOf_eq (X2 X3 : S8x8x128.Idx → EReal) (i : S_.Idx) :
    tailOf X2 X3 i = loss clampZero (fun b => X2 (ix3 b 0 0)) (fun b => X3 (ix3 b 0 0)) := by
  unfold tailOf
  rw [hostDivf_apply, hostReduceAdd_apply, Ideal.hostReduceAdd_total _ (fun b => b.elim0)]
  unfold loss
  refine congrArg₂ Ideal.div (congrArg₂ (· + ·) rfl ?_) rfl
  refine Fintype.sum_equiv idxEquiv1 _ _ fun j => ?_
  obtain ⟨b, rfl⟩ : ∃ b, j = ix1 b := ⟨j 0, eq_ix1 j⟩
  simp only [hostPowf_apply, maximumf_apply, subf_apply, addf_apply, mulf_apply, hostDivf_apply,
    broadcastInDim_scalar_apply, constant_apply, slice_read]
  rfl

variable (m : (ℓ : Loc nD τ sig) → Buf (Elt Ideal) ℓ) (ρ : Dev nD → PrngReg)

/-- What the result buffer holds once the lines after the region have run from the region's exit contents: the
    clamped loss of the tile-by-tile sums of the argument arrays, each result array holding its batch element's sum at
    every entry of that element's block. -/
theorem tail_value (c : Dev nD) :
    Pipeline.afterTail₀ cfgs (dats m) 0 (V0 m) [hostOps1] c main_v25
      = fun _ => loss clampZero (tpTiled (V m c main_arg0) (V m c main_arg1)) (nvTiled (V m c main_arg1)) := by
  have e2 : Pipeline.withArrays (cfgs 0).spec c (V0 m c) (fun w => (dats m 0 c).arrAt w (cfgs 0).N) (Proc.devRef .tc main_v0_0)
      = fun i => tpTiled (V m c main_arg0) (V m c main_arg1) (i 0) :=
    (Pipeline.withArrays_arr spec0 launch0.win.arr_inj c _ _ 2).trans (arr2_eq m c)
  have e3 : Pipeline.withArrays (cfgs 0).spec c (V0 m c) (fun w => (dats m 0 c).arrAt w (cfgs 0).N) (Proc.devRef .tc main_v0_1)
      = fun i => nvTiled (V m c main_arg1) (i 0) :=
    (Pipeline.withArrays_arr spec0 launch0.win.arr_inj c _ _ 3).trans (arr3_eq m c)
  unfold Pipeline.afterTail₀
  show StableHlo.after hostOps1 _ (Proc.devRef .tc main_v25) = _
  after_results_simp
  rw [e2, e3]
  funext i
  exact tailOf_eq _ _ i

/-- Every weakly fair execution of the idealized kernel program ends with its result at the clamped loss of the
    tile-by-tile sums of its argument arrays, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v25)
          = (fun _ => loss clampZero (tpTiled (m ((c.tc : Thread nD τ).loc main_arg0)) (m ((c.tc : Thread nD τ).loc main_arg1)))
              (nvTiled (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · exact ((h c).2 main_v25 (Pipeline.mem_restRefs_of main_v25 rfl (by decide))).trans (tail_value m c)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Hand

end
-- ==== Proof.RefSoftmax.lean ====
/-
  The reference's softmax at an index. It takes the maximum over the class axis (a fold of `max` from `-∞`, then
  once more against `-∞`, which changes nothing), subtracts it, exponentiates, sums over the class axis from zero,
  and divides: entry `(b, c, h, w)` is the shifted exponential of class `c` over the pixel's denominator.
-/
import proofs.«426206_j21749714387529_3_alg».proof.Proof.RefReadP
import proofs.«426206_j21749714387529_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.ReferenceIdeal.ReadP Cert.FocalTversky

/-- The f32 pattern of `-∞` is the least extended real. -/
theorem softmax_negInf_eq_bot : Ideal.ofBits .f32 0xFF800000#32 = (⊥ : EReal) := by
  simp [Ideal.ofBits, Ideal.ieee]

/-- The class-axis maximum at pixel `(b, h, w)`: the fold of `max` from `-∞` over the pixel's 21 logits. -/
theorem softmax_max_reduce_apply (x0 : (⟨S8x21x512x512, .f32⟩ : BufTy).Contents (Elt Ideal)) (b : Fin 8) (h w : Fin 512) :
    val_main_v0 (F := Ideal) x0 (ix3 b h w) = chanMax (logitsAt x0 b h w) := by
  have hR : S8x21x512x512.Reduces [1] S8x512x512 := by decide
  have key := Host.reduce_eq_fold_single (α := Ideal .f32) (s := S8x21x512x512) (t := S8x512x512) (u := S_)
    (FloatOps.maximumf (F := Ideal) (φ := .f32)) x0
    (val_main_cst (F := Ideal)) reducesTo_S8x21x512x512_S8x512x512_d1 hR h_S_ (ix3 b h w)
  unfold val_main_v0
  refine key.trans ?_
  rw [val_main_cst_apply, Ideal.ofBits_def, softmax_negInf_eq_bot]
  unfold chanMax logitsAt
  show (Finset.univ : Finset (Fin 21)).fold max ⊥ (fun k => x0 (hR.lift (ix3 b h w) k)) = _
  refine congrArg (fun f => (Finset.univ : Finset (Fin 21)).fold max ⊥ f) (funext fun k => congrArg x0 ?_)
  exact funext fun a => Fin.ext (by match a with | ⟨0, _⟩ => rfl | ⟨1, _⟩ => rfl | ⟨2, _⟩ => rfl | ⟨3, _⟩ => rfl)

/-- Taking the maximum once more against `-∞` changes nothing. -/
theorem softmax_max_stage_apply (x0 : (⟨S8x21x512x512, .f32⟩ : BufTy).Contents (Elt Ideal)) (b : Fin 8) (h w : Fin 512) :
    val_main_v2 (F := Ideal) x0 (ix3 b h w) = chanMax (logitsAt x0 b h w) := by
  rw [val_main_v2_apply, val_main_v1_apply, val_main_cst_0_apply, softmax_max_reduce_apply, Ideal.ofBits_def, softmax_negInf_eq_bot,
    Ideal.maximumf_def]
  exact max_eq_right bot_le

/-- The maximum broadcast back over the class axis: every class of a pixel sees the pixel's maximum. -/
theorem softmax_max_bcast_apply (x0 : (⟨S8x21x512x512, .f32⟩ : BufTy).Contents (Elt Ideal)) (b : Fin 8) (c : Fin 21) (h w : Fin 512) :
    val_main_v4 (F := Ideal) x0 (ix4 b c h w) = chanMax (logitsAt x0 b h w) := by
  rw [val_main_v4_apply, val_main_v3_apply,
    show idx_main_v3 (idx_main_v4 (ix4 b c h w)) = ix3 b h w from
      funext fun a => Fin.ext (by match a with | ⟨0, _⟩ => rfl | ⟨1, _⟩ => rfl | ⟨2, _⟩ => rfl),
    softmax_max_stage_apply]

/-- The exponential stage: class `c`'s shifted exponential. -/
theorem softmax_exp_apply (x0 : (⟨S8x21x512x512, .f32⟩ : BufTy).Contents (Elt Ideal)) (b : Fin 8) (c : Fin 21) (h w : Fin 512) :
    val_main_v6 (F := Ideal) x0 (ix4 b c h w) = ex (logitsAt x0 b h w) c := by
  rw [val_main_v6_apply, val_main_v5_apply, softmax_max_bcast_apply, Ideal.hostUnary_exp_def, Ideal.subf_def]
  rfl

/-- The sum over the class axis from zero: the pixel's denominator. -/
theorem softmax_sum_apply (x0 : (⟨S8x21x512x512, .f32⟩ : BufTy).Contents (Elt Ideal)) (b : Fin 8) (h w : Fin 512) :
    val_main_v7 (F := Ideal) x0 (ix3 b h w) = den (logitsAt x0 b h w) := by
  rw [val_main_v7_apply, val_main_cst_1_apply, Ideal.ofBits_def, Ideal.ofBits_zero_f32, zero_add]
  unfold den
  refine Finset.sum_congr rfl fun k _ => ?_
  rw [show idx_main_v7 (ix3 b h w) k = ix4 b k h w from
      funext fun a => Fin.ext (by match a with | ⟨0, _⟩ => rfl | ⟨1, _⟩ => rfl | ⟨2, _⟩ => rfl | ⟨3, _⟩ => rfl),
    softmax_exp_apply]

/-- The denominator broadcast back over the class axis. -/
theorem softmax_sum_bcast_apply (x0 : (⟨S8x21x512x512, .f32⟩ : BufTy).Contents (Elt Ideal)) (b : Fin 8) (c : Fin 21) (h w : Fin 512) :
    val_main_v9 (F := Ideal) x0 (ix4 b c h w) = den (logitsAt x0 b h w) := by
  rw [val_main_v9_apply, val_main_v8_apply,
    show idx_main_v8 (idx_main_v9 (ix4 b c h w)) = ix3 b h w from
      funext fun a => Fin.ext (by match a with | ⟨0, _⟩ => rfl | ⟨1, _⟩ => rfl | ⟨2, _⟩ => rfl),
    softmax_sum_apply]

/-- Entry `(b, c, h, w)` of the softmax stage: class `c`'s share at pixel `(b, h, w)`. -/
theorem softmax_apply (x0 : (⟨S8x21x512x512, .f32⟩ : BufTy).Contents (Elt Ideal)) (b : Fin 8) (c : Fin 21) (h w : Fin 512) :
    val_main_v10 (F := Ideal) x0 (ix4 b c h w)
      = Ideal.div (ex (logitsAt x0 b h w) c) (den (logitsAt x0 b h w)) := by
  rw [val_main_v10_apply, softmax_exp_apply, softmax_sum_bcast_apply, Ideal.hostDivf_def]

end Cert.ReferenceIdeal.Hand

end
-- ==== Proof.RefGather.lean ====
/-
  The reference's gather along the class axis. The index at flattened pixel `n` of batch element `b` is the label
  with 255 replaced by 0; a negative index would be shifted by 21, and a position whose index then falls outside
  [0, 20] would be filled with the not-a-number pattern. For an admissible label neither happens: the index is
  the label's class number (0 for the ignored label), and the gathered entry is that class's entry of the
  flattened softmax at `(b, class, n)`, which is entry `(b, class, n / 512, n % 512)` of the softmax.
-/
import proofs.«426206_j21749714387529_3_alg».proof.Proof.RefReadP
import proofs.«426206_j21749714387529_3_alg».proof.Proof.Spec
import Idealize.ShloMosaic.PureOps.Reduce
import Idealize.ShloMosaic.Lib.ReduceAll
import Idealize.ShloMosaic.Lib.ValueIdx
import Idealize.ShloMosaic.Lib.Pipeline.Value

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.ReferenceIdeal.ReadP Cert.FocalTversky

/-- The reshaped label array at flattened pixel `n` is the label at `(b, n / 512, n % 512)`. -/
theorem idx12 (b : Fin 8) (n : Fin 262144) : idx_main_v12 (ix2 b n) = ix3 b (hOf n) (wOf n) := by
  funext a
  refine Fin.ext ?_
  have hb := b.isLt
  have hn := n.isLt
  match a with
  | ⟨0, _⟩ => show (b.val * 262144 + n.val) / 262144 = b.val; omega
  | ⟨1, _⟩ => show (b.val * 262144 + n.val) / 512 % 512 = n.val / 512; omega
  | ⟨2, _⟩ => show (b.val * 262144 + n.val) % 512 = n.val % 512; omega

/-- The reshape back to `[8, 262144]` reads the gathered array at `(b, 0, n)`. -/
theorem idx18 (b : Fin 8) (n : Fin 262144) : idx_main_v18 (ix2 b n) = ix3 b (0 : Fin 1) n := by
  funext a
  refine Fin.ext ?_
  have hb := b.isLt
  have hn := n.isLt
  match a with
  | ⟨0, _⟩ => show (b.val * 262144 + n.val) / 262144 = b.val; omega
  | ⟨1, _⟩ => rfl
  | ⟨2, _⟩ => show (b.val * 262144 + n.val) % 262144 = n.val; omega

/-- The broadcast to `[8, 1, 262144]` reads the index stage at `(b, n)`. -/
theorem idx16 (b : Fin 8) (n : Fin 262144) : idx_main_v16 (ix3 b (0 : Fin 1) n) = ix2 b n := by
  funext a
  refine Fin.ext ?_
  match a with
  | ⟨0, _⟩ => rfl
  | ⟨1, _⟩ => rfl

/-- The reshape to `[8, 1, 262144, 1]` reads the shifted index at `(b, 0, n)`. -/
theorem idx5 (b : Fin 8) (n : Fin 262144) : idx_main_call1_v5 (ix4 b (0 : Fin 1) n (0 : Fin 1)) = ix3 b (0 : Fin 1) n := by
  funext a
  refine Fin.ext ?_
  have hb := b.isLt
  have hn := n.isLt
  match a with
  | ⟨0, _⟩ => show (((b.val * 1 + 0) * 262144 + n.val) * 1 + 0) / 262144 = b.val; omega
  | ⟨1, _⟩ => rfl
  | ⟨2, _⟩ => show (((b.val * 1 + 0) * 262144 + n.val) * 1 + 0) % 262144 = n.val; omega

/-- The flattened softmax at `(b, c, n)` is the softmax at `(b, c, n / 512, n % 512)`. -/
theorem idx11 (b : Fin 8) (c : Fin 21) (n : Fin 262144) : idx_main_v11 (ix3 b c n) = ix4 b c (hOf n) (wOf n) := by
  funext a
  refine Fin.ext ?_
  have hb := b.isLt
  have hc := c.isLt
  have hn := n.isLt
  match a with
  | ⟨0, _⟩ => show ((b.val * 21 + c.val) * 262144 + n.val) / 5505024 = b.val; omega
  | ⟨1, _⟩ => show ((b.val * 21 + c.val) * 262144 + n.val) / 262144 % 21 = c.val; omega
  | ⟨2, _⟩ => show ((b.val * 21 + c.val) * 262144 + n.val) / 512 % 512 = n.val / 512; omega
  | ⟨3, _⟩ => show ((b.val * 21 + c.val) * 262144 + n.val) % 512 = n.val % 512; omega

local notation "gD" => gather_S8x21x262144_S8x1x262144x1_S8x1x262144_n_1_02_02_1_3_111

/-- A class number, read as a signed word, is itself. -/
theorem toInt_class (c : Fin 21) : (BitVec.ofNat 32 c.val).toInt = (c.val : Int) := by
  have hc := c.isLt
  rw [BitVec.toInt_eq_toNat_cond, BitVec.toNat_ofNat]
  have : c.val % 2 ^ 32 = c.val := Nat.mod_eq_of_lt (by omega)
  rw [this, if_pos (by omega)]

/-- A coordinate of `(b, 0, n)` named by an axis known to be a given literal. -/
theorem ix3_at (b : Fin 8) (n : Fin 262144) :
    (∀ X : Fin 3, X = 0 → ((ix3 b (0 : Fin 1) n : S8x1x262144.Idx) X).val = b.val) ∧
    (∀ X : Fin 3, X = 1 → ((ix3 b (0 : Fin 1) n : S8x1x262144.Idx) X).val = 0) ∧
    (∀ X : Fin 3, X = 2 → ((ix3 b (0 : Fin 1) n : S8x1x262144.Idx) X).val = n.val) :=
  ⟨fun X hX => by subst hX; rfl, fun X hX => by subst hX; rfl, fun X hX => by subst hX; rfl⟩

/-- The start-indices position result index `(b, 0, n)` reads: `(b, 0, n, 0)`. -/
theorem siIdx_eq (b : Fin 8) (n : Fin 262144) (k : Fin (GatherDims.startIndexMap gD).length) :
    GatherDims.siIdx gD (ix3 b (0 : Fin 1) n) k = ix4 b (0 : Fin 1) n (0 : Fin 1) := by
  funext a
  refine Fin.ext ?_
  match a with
  | ⟨0, _⟩ =>
    show (GatherDims.siIdx gD (ix3 b (0 : Fin 1) n) k (0 : Fin 4)).val = b.val
    unfold GatherDims.siIdx
    rw [dif_neg (by decide)]
    unfold GatherDims.siCoord
    simp only [Fin.val_cast]
    exact (ix3_at b n).1 _ (by decide)
  | ⟨1, _⟩ =>
    show (GatherDims.siIdx gD (ix3 b (0 : Fin 1) n) k (1 : Fin 4)).val = 0
    unfold GatherDims.siIdx
    rw [dif_neg (by decide)]
    unfold GatherDims.siCoord
    simp only [Fin.val_cast]
    exact (ix3_at b n).2.1 _ (by decide)
  | ⟨2, _⟩ =>
    show (GatherDims.siIdx gD (ix3 b (0 : Fin 1) n) k (2 : Fin 4)).val = n.val
    unfold GatherDims.siIdx
    rw [dif_neg (by decide)]
    unfold GatherDims.siCoord
    simp only [Fin.val_cast]
    exact (ix3_at b n).2.2 _ (by decide)
  | ⟨3, _⟩ =>
    show (GatherDims.siIdx gD (ix3 b (0 : Fin 1) n) k (3 : Fin 4)).val = 0
    unfold GatherDims.siIdx
    rw [dif_pos (by decide)]
    have hk : k.val < 1 := k.isLt
    show k.val = 0
    omega

/-- The gather read at `(b, 0, n)`: batch axes 0 and 2 copy `b` and `n`, and the collapsed class axis takes the start index,
    which for a class number `c` is inside `[0, 20]` and so is not clamped. -/
theorem gather_read {α : Type} (x : S8x21x262144.Idx → α) (idx : IVec S8x1x262144x1 32) (b : Fin 8) (n : Fin 262144) (c : Fin 21)
    (hidx : idx (ix4 b (0 : Fin 1) n (0 : Fin 1)) = BitVec.ofNat 32 c.val) :
    Host.gather gD x idx (ix3 b (0 : Fin 1) n) = x (ix3 b c n) := by
  unfold Host.gather
  refine congrArg x ?_
  funext a
  refine Fin.ext ?_
  match a with
  | ⟨0, _⟩ =>
    show GatherDims.start gD (ix3 b (0 : Fin 1) n) idx 0 + GatherDims.batchCoord gD (ix3 b (0 : Fin 1) n) 0 + GatherDims.offCoord gD (ix3 b (0 : Fin 1) n) 0 = b.val
    rw [GatherDims.start_batching _ _ _ _ (by decide), GatherDims.offCoord_eq_zero _ _ _ (by decide), Nat.zero_add, Nat.add_zero]
    unfold GatherDims.batchCoord
    rw [dif_pos (show (0 : Fin 3) ∈ GatherDims.operandBatchingDims gD by decide)]
    unfold GatherDims.siCoord
    simp only [Fin.val_cast]
    exact (ix3_at b n).1 _ (by decide)
  | ⟨1, _⟩ =>
    show GatherDims.start gD (ix3 b (0 : Fin 1) n) idx 1 + GatherDims.batchCoord gD (ix3 b (0 : Fin 1) n) 1 + GatherDims.offCoord gD (ix3 b (0 : Fin 1) n) 1 = c.val
    rw [GatherDims.batchCoord_eq_zero _ _ _ (by decide), GatherDims.offCoord_eq_zero _ _ _ (by decide)]
    simp only [Nat.add_zero]
    unfold GatherDims.start
    rw [dif_pos (show (1 : Fin 3) ∈ GatherDims.startIndexMap gD by decide), siIdx_eq, hidx, toInt_class]
    have hc := c.isLt
    show min (c.val : Int).toNat (21 - 1) = c.val
    rw [Int.toNat_natCast]
    omega
  | ⟨2, _⟩ =>
    show GatherDims.start gD (ix3 b (0 : Fin 1) n) idx 2 + GatherDims.batchCoord gD (ix3 b (0 : Fin 1) n) 2 + GatherDims.offCoord gD (ix3 b (0 : Fin 1) n) 2 = n.val
    rw [GatherDims.start_batching _ _ _ _ (by decide), GatherDims.offCoord_eq_zero _ _ _ (by decide), Nat.zero_add, Nat.add_zero]
    unfold GatherDims.batchCoord
    rw [dif_pos (show (2 : Fin 3) ∈ GatherDims.operandBatchingDims gD by decide)]
    unfold GatherDims.siCoord
    simp only [Fin.val_cast]
    exact (ix3_at b n).2.2 _ (by decide)

/-- A left fold by `and` from 1 over one-bit words that are all 1 is 1. -/
theorem foldl_andi_one {ι : Type} (f : ι → BitVec 1) :
    ∀ (l : List ι), (∀ k ∈ l, f k = 1#1) → l.foldl (fun r k => IntOp.andi r (f k)) 1#1 = 1#1
  | [], _ => rfl
  | a :: l, h => by
    have h1 : IntOp.andi 1#1 (f a) = 1#1 := by rw [h a (List.mem_cons_self ..)]; decide
    rw [List.foldl_cons, h1]
    exact foldl_andi_one f l (fun k hk => h k (List.mem_cons_of_mem _ hk))

/-- A reduction by `and` from the constant 1 is 1 at `j` when every operand element reducing into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ ?_
  intro i hi
  exact hx i (by simpa using (List.mem_filter.1 hi).2)

/-- An index of the `[8, 1, 262144, 1]` array is determined by its coordinates on the two axes of size above one. -/
theorem eq_ix4_of (i : S8x1x262144x1.Idx) (b : Fin 8) (n : Fin 262144) (h0 : (i 0).val = b.val) (h2 : (i 2).val = n.val) :
    i = ix4 b (0 : Fin 1) n (0 : Fin 1) := by
  funext a
  refine Fin.ext ?_
  match a with
  | ⟨0, _⟩ => exact h0
  | ⟨1, _⟩ =>
    have h1 : (i 1).val < 1 := (i 1).isLt
    show (i 1).val = 0
    omega
  | ⟨2, _⟩ => exact h2
  | ⟨3, _⟩ =>
    have h3 : (i 3).val < 1 := (i 3).isLt
    show (i 3).val = 0
    omega

/-- No class number is the ignored value. -/
theorem class_ne_ignored (c : Fin 21) : BitVec.ofNat 32 c.val ≠ 255#32 := by
  intro h
  have hc := c.isLt
  have h' := congrArg BitVec.toNat h
  rw [BitVec.toNat_ofNat, Nat.mod_eq_of_lt (by omega)] at h'
  have : (255#32 : BitVec 32).toNat = 255 := by decide
  omega

/-- The index stage at a pixel whose label is class `c`: the label itself. -/
theorem v15_of_class (x1 : (⟨S8x512x512, .i32⟩ : BufTy).Contents (Elt Ideal)) (b : Fin 8) (n : Fin 262144) (c : Fin 21)
    (h : x1 (ix3 b (hOf n) (wOf n)) = BitVec.ofNat 32 c.val) :
    val_main_v15 (F := Ideal) x1 (ix2 b n) = BitVec.ofNat 32 c.val := by
  rw [val_main_v15_apply, val_main_v14_apply, val_main_v12_apply, idx12, h, val_main_v13_apply, val_main_c_apply,
    IntOp.cmpi_ne.2 (class_ne_ignored c), select_one]

/-- The index stage at a pixel whose label is the ignored value: 0. -/
theorem v15_of_ignored (x1 : (⟨S8x512x512, .i32⟩ : BufTy).Contents (Elt Ideal)) (b : Fin 8) (n : Fin 262144)
    (h : x1 (ix3 b (hOf n) (wOf n)) = 255#32) :
    val_main_v15 (F := Ideal) x1 (ix2 b n) = BitVec.ofNat 32 (0 : Fin 21).val := by
  have hz : IntOp.cmpi .ne (255#32 : BitVec 32) 255#32 = 0#1 := by decide
  rw [val_main_v15_apply, val_main_v14_apply, val_main_v12_apply, idx12, h, val_main_v13_apply, val_main_c_apply,
    hz, select_zero, val_main_call0_v1_apply, val_main_call0_v0_apply, val_main_c_2_apply]
  rfl

/-- When the index stage holds the number of class `c`, so does the start-index array at `(b, 0, n, 0)`: the word is
    not negative, so the shift by 21 is not taken. -/
theorem v5_of_v15 (x1 : (⟨S8x512x512, .i32⟩ : BufTy).Contents (Elt Ideal)) (b : Fin 8) (n : Fin 262144) (c : Fin 21)
    (h : val_main_v15 (F := Ideal) x1 (ix2 b n) = BitVec.ofNat 32 c.val) :
    val_main_call1_v5 (F := Ideal) x1 (ix4 b (0 : Fin 1) n (0 : Fin 1)) = BitVec.ofNat 32 c.val := by
  have hc := c.isLt
  have h16 : val_main_v16 (F := Ideal) x1 (ix3 b (0 : Fin 1) n) = BitVec.ofNat 32 c.val := by
    rw [val_main_v16_apply, idx16, h]
  have hneg : IntOp.cmpi .slt (BitVec.ofNat 32 c.val) (0#32 : BitVec 32) = 0#1 := by
    refine eq_zero_of_ne_one (fun h1 => ?_)
    have h2 := IntOp.cmpi_slt.1 h1
    rw [toInt_class] at h2
    have : (0#32 : BitVec 32).toInt = 0 := by decide
    omega
  rw [val_main_call1_v5_apply, idx5, val_main_call1_v4_apply, val_main_call1_v1_apply, h16, val_main_call1_v0_apply,
    val_main_call1_c_apply, hneg, select_zero]

/-- The in-range bit of the start index at `(b, 0, n, 0)` is 1 when the index is a class number. -/
theorem v11_one (x1 : (⟨S8x512x512, .i32⟩ : BufTy).Contents (Elt Ideal)) (b : Fin 8) (n : Fin 262144) (c : Fin 21)
    (h : val_main_call1_v5 (F := Ideal) x1 (ix4 b (0 : Fin 1) n (0 : Fin 1)) = BitVec.ofNat 32 c.val) :
    val_main_call1_v11 (F := Ideal) x1 (ix4 b (0 : Fin 1) n (0 : Fin 1)) = 1#1 := by
  have hc := c.isLt
  have hge : IntOp.cmpi .sge (BitVec.ofNat 32 c.val) (0#32 : BitVec 32) = 1#1 := by
    refine IntOp.cmpi_sge.2 ?_
    rw [toInt_class]
    have : (0#32 : BitVec 32).toInt = 0 := by decide
    omega
  have hle : IntOp.cmpi .sle (BitVec.ofNat 32 c.val) (20#32 : BitVec 32) = 1#1 := by
    refine IntOp.cmpi_sle.2 ?_
    rw [toInt_class]
    have : (20#32 : BitVec 32).toInt = 20 := by decide
    omega
  rw [val_main_call1_v11_apply, val_main_call1_v7_apply, val_main_call1_v10_apply, h, val_main_call1_v6_apply,
    val_main_call1_c_2_apply, val_main_call1_v9_apply, val_main_call1_v8_apply, val_main_call1_c_1_apply, hge, hle]
  decide

/-- The fill mask at `(b, 0, n)` is 1 when the index is a class number. -/
theorem v12_one (x1 : (⟨S8x512x512, .i32⟩ : BufTy).Contents (Elt Ideal)) (b : Fin 8) (n : Fin 262144) (c : Fin 21)
    (h : val_main_call1_v5 (F := Ideal) x1 (ix4 b (0 : Fin 1) n (0 : Fin 1)) = BitVec.ofNat 32 c.val) :
    val_main_call1_v12 (F := Ideal) x1 (ix3 b (0 : Fin 1) n) = 1#1 := by
  unfold val_main_call1_v12
  refine reduce_andi_one _ _ _ _ _ rfl ?_
  intro i hi
  have e0 := Shape.ReducesTo.drop_apply_val_of_eq reducesTo_S8x1x262144x1_S8x1x262144_d3 i 0 0
  have e2 := Shape.ReducesTo.drop_apply_val_of_eq reducesTo_S8x1x262144x1_S8x1x262144_d3 i 2 2
  rw [hi] at e0 e2
  rw [eq_ix4_of i b n e0.symm e2.symm]
  exact v11_one x1 b n c h

/-- The gather, when the index stage holds the number of class `c`. -/
theorem gather_of_v15 (x0 : (⟨S8x21x512x512, .f32⟩ : BufTy).Contents (Elt Ideal)) (x1 : (⟨S8x512x512, .i32⟩ : BufTy).Contents (Elt Ideal))
    (b : Fin 8) (n : Fin 262144) (c : Fin 21) (h : val_main_v15 (F := Ideal) x1 (ix2 b n) = BitVec.ofNat 32 c.val) :
    val_main_v18 (F := Ideal) x0 x1 (ix2 b n) = val_main_v10 (F := Ideal) x0 (ix4 b c (hOf n) (wOf n)) := by
  have h5 := v5_of_v15 x1 b n c h
  rw [val_main_v18_apply, idx18, val_main_v17_apply, v12_one x1 b n c h5, select_one]
  unfold val_main_call1_v13
  rw [gather_read _ _ b n c h5, val_main_v11_apply, idx11]

/-- For a class label `c` at flattened pixel `n` of batch element `b`, the gathered entry is class `c`'s softmax entry. -/
theorem gather_of_class (x0 : (⟨S8x21x512x512, .f32⟩ : BufTy).Contents (Elt Ideal)) (x1 : (⟨S8x512x512, .i32⟩ : BufTy).Contents (Elt Ideal))
    (b : Fin 8) (n : Fin 262144) (c : Fin 21) (h : x1 (ix3 b (hOf n) (wOf n)) = BitVec.ofNat 32 c.val) :
    val_main_v18 (F := Ideal) x0 x1 (ix2 b n) = val_main_v10 (F := Ideal) x0 (ix4 b c (hOf n) (wOf n)) := by
  exact gather_of_v15 x0 x1 b n c (v15_of_class x1 b n c h)

/-- For the ignored label the gathered entry is class 0's softmax entry. -/
theorem gather_of_ignored (x0 : (⟨S8x21x512x512, .f32⟩ : BufTy).Contents (Elt Ideal)) (x1 : (⟨S8x512x512, .i32⟩ : BufTy).Contents (Elt Ideal))
    (b : Fin 8) (n : Fin 262144) (h : x1 (ix3 b (hOf n) (wOf n)) = 255#32) :
    val_main_v18 (F := Ideal) x0 x1 (ix2 b n) = val_main_v10 (F := Ideal) x0 (ix4 b (0 : Fin 21) (hOf n) (wOf n)) := by
  exact gather_of_v15 x0 x1 b n (0 : Fin 21) (v15_of_ignored x1 b n h)

/-- The weight stage at flattened pixel `n` of batch element `b`. -/
theorem ref_valid (x1 : (⟨S8x512x512, .i32⟩ : BufTy).Contents (Elt Ideal)) (b : Fin 8) (n : Fin 262144) :
    val_main_v19 (F := Ideal) x1 (ix2 b n) = vfAt x1 b (hOf n) (wOf n) := by
  rw [val_main_v19_apply, val_main_v14_apply, val_main_v12_apply, idx12, val_main_v13_apply, val_main_c_apply]
  unfold vfAt vf
  by_cases ht : x1 (ix3 b (hOf n) (wOf n)) = 255#32
  · have hz : IntOp.cmpi .ne (255#32 : BitVec 32) 255#32 = 0#1 := by decide
    have h0 : (0#1 : BitVec 1).toNat = 0 := rfl
    rw [if_pos ht, ht, hz]
    show (((0#1 : BitVec 1).toNat : ℝ) : EReal) = 0
    rw [h0, Nat.cast_zero, EReal.coe_zero]
  · have h1 : (1#1 : BitVec 1).toNat = 1 := rfl
    rw [if_neg ht, IntOp.cmpi_ne.2 ht]
    show (((1#1 : BitVec 1).toNat : ℝ) : EReal) = 1
    rw [h1, Nat.cast_one, EReal.coe_one]

end Cert.ReferenceIdeal.Hand

end
-- ==== Proof.RefValue.lean ====
/-
  The reference's value. At flattened pixel `n` of batch element `b` the gathered share times the weight is `pix`:
  a class label picks that class's share, which is the one-hot sum over the denominator, and the ignored label's
  product is 0 whatever share is picked. The per-batch sums run over the flattened pixel index from zero, and the
  chain from `(TP, NV)` to the mean is `loss` with nothing applied to `1 - tversky` before the power.
-/
import proofs.«426206_j21749714387529_3_alg».proof.Proof.RefReadP
import proofs.«426206_j21749714387529_3_alg».proof.Proof.RefSoftmax
import proofs.«426206_j21749714387529_3_alg».proof.Proof.RefGather
import proofs.«426206_j21749714387529_3_alg».proof.Proof.PixelMath
import proofs.«426206_j21749714387529_3_alg».proof.Proof.Spec
import Idealize.ShloMosaic.PureOps.Ideal.Laws
import Idealize.ShloMosaic.Lib.ValueIdx
import Idealize.ShloMosaic.Lib.Pipeline.Value

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.ReferenceIdeal.ReadP Cert.FocalTversky

/-- The ignored label has weight zero. -/
theorem vf_ignored : vf 255#32 = 0 := by
  unfold vf
  exact if_pos rfl

/-- The weighted share of flattened pixel `n` of batch element `b`, for an admissible label. -/
theorem ref_pixel (x0 : (⟨S8x21x512x512, .f32⟩ : BufTy).Contents (Elt Ideal)) (x1 : (⟨S8x512x512, .i32⟩ : BufTy).Contents (Elt Ideal))
    (b : Fin 8) (n : Fin 262144) (h : LabelOK (x1 (ix3 b (hOf n) (wOf n)))) :
    val_main_v20 (F := Ideal) x0 x1 (ix2 b n) = pixAt x0 x1 b (hOf n) (wOf n) := by
  rw [val_main_v20_apply, Ideal.mulf_def, ref_valid]
  rcases h with h | ⟨c, h⟩
  · -- the ignored label: both products have the factor zero
    have hv : vfAt x1 b (hOf n) (wOf n) = 0 := by
      unfold vfAt
      rw [h, vf_ignored]
    have hp : pixAt x0 x1 b (hOf n) (wOf n) = 0 := by
      unfold pixAt pix
      rw [h, vf_ignored, mul_zero]
    rw [hv, hp, mul_zero]
  · -- a class label: the gathered entry is that class's share, and the one-hot sum picks the same exponential
    rw [gather_of_class x0 x1 b n c h, softmax_apply]
    unfold pixAt vfAt pix
    rw [h, num_of_class]

/-- The indices of a length-8 vector are its 8 coordinates. -/
def idxEquiv1 : (⟨1, ![8]⟩ : Shape).Idx ≃ Fin 8 where
  toFun j := j 0
  invFun a := ix1 a
  left_inv j := (eq_ix1 j).symm
  right_inv _ := rfl

/-- The true-positive sum of batch element `b`: the sum over the flattened pixel index, from zero. -/
theorem ref_tp (x0 : (⟨S8x21x512x512, .f32⟩ : BufTy).Contents (Elt Ideal)) (x1 : (⟨S8x512x512, .i32⟩ : BufTy).Contents (Elt Ideal))
    (hT : ∀ i, LabelOK (x1 i)) (b : Fin 8) :
    val_main_v21 (F := Ideal) x0 x1 (ix1 b) = tpFlat x0 x1 b := by
  rw [val_main_v21_apply, val_main_cst_3_apply, Ideal.ofBits_def, Ideal.ofBits_zero_f32, zero_add]
  unfold tpFlat sumFlat
  refine Finset.sum_congr rfl fun k _ => ?_
  have hidx : idx_main_v21 (ix1 b) k = ix2 b k :=
    funext fun a => Fin.ext (by match a with | ⟨0, _⟩ => rfl | ⟨1, _⟩ => rfl)
  rw [hidx]
  exact ref_pixel x0 x1 b k (hT _)

/-- The valid count of batch element `b`: the sum of the weights over the flattened pixel index, from zero. -/
theorem ref_nv (x1 : (⟨S8x512x512, .i32⟩ : BufTy).Contents (Elt Ideal)) (b : Fin 8) :
    val_main_v22 (F := Ideal) x1 (ix1 b) = nvFlat x1 b := by
  rw [val_main_v22_apply, val_main_cst_4_apply, Ideal.ofBits_def, Ideal.ofBits_zero_f32, zero_add]
  unfold nvFlat sumFlat
  refine Finset.sum_congr rfl fun k _ => ?_
  have hidx : idx_main_v22 (ix1 b) k = ix2 b k :=
    funext fun a => Fin.ext (by match a with | ⟨0, _⟩ => rfl | ⟨1, _⟩ => rfl)
  rw [hidx]
  exact ref_valid x1 b k

/-- The focal term of batch element `b`: the chain from the two sums, with no clamp before the power. -/
theorem ref_focal (x0 : (⟨S8x21x512x512, .f32⟩ : BufTy).Contents (Elt Ideal)) (x1 : (⟨S8x512x512, .i32⟩ : BufTy).Contents (Elt Ideal))
    (hT : ∀ i, LabelOK (x1 i)) (b : Fin 8) :
    val_main_v39 (F := Ideal) x0 x1 (ix1 b) = focal id (tpFlat x0 x1 b) (nvFlat x1 b) := by
  simp only [val_main_v39_apply, val_main_v38_apply, val_main_cst_10_apply, val_main_v37_apply, val_main_v36_apply,
    val_main_cst_9_apply, val_main_v35_apply, val_main_v34_apply, val_main_v33_apply, val_main_cst_8_apply,
    val_main_v32_apply, val_main_v31_apply, val_main_v30_apply, val_main_cst_7_apply, val_main_v29_apply,
    val_main_v28_apply, val_main_v27_apply, val_main_cst_6_apply, val_main_v26_apply, val_main_v25_apply,
    val_main_cst_5_apply, val_main_v24_apply, val_main_v23_apply, ref_tp x0 x1 hT b, ref_nv x1 b,
    Ideal.hostPowf_def, Ideal.hostDivf_def, Ideal.addf_def, Ideal.subf_def, Ideal.mulf_def, Ideal.ofBits_def]
  unfold focal tversky cOne cAlpha cBeta cGamma
  rfl

/-- The reference's result: the unclamped loss of the sums over the flattened pixel index. -/
theorem ref_value (x0 : (⟨S8x21x512x512, .f32⟩ : BufTy).Contents (Elt Ideal)) (x1 : (⟨S8x512x512, .i32⟩ : BufTy).Contents (Elt Ideal))
    (hT : ∀ i, LabelOK (x1 i)) :
    val_main_v41 (F := Ideal) x0 x1 = fun _ => loss id (tpFlat x0 x1) (nvFlat x1) := by
  funext i
  rw [val_main_v41_apply, val_main_v40_apply, val_main_cst_11_apply, val_main_cst_12_apply]
  simp only [Ideal.hostDivf_def, Ideal.ofBits_def]
  have hsum : ∑ j : S8.Idx, val_main_v39 (F := Ideal) x0 x1 j
      = ∑ b : Fin 8, focal id (tpFlat x0 x1 b) (nvFlat x1 b) := by
    refine Fintype.sum_equiv idxEquiv1 _ _ fun j => ?_
    rw [eq_ix1 j]
    exact ref_focal x0 x1 hT (j 0)
  rw [hsum]
  unfold loss cZero cEight
  rfl

end Cert.ReferenceIdeal.Hand

end
-- ==== Proof.lean ====
/-
  A focal Tversky loss over a [8, 21, 512, 512] array of logits and a [8, 512, 512] array of class labels, 255
  meaning "ignore this pixel". Per pixel the softmax over the 21 classes gives the labelled class a share; the
  true-positive mass `TP b` of batch element `b` is the sum of the shares of its non-ignored pixels and `NV b` their
  number; the Tversky index is `(TP + 1) / (TP + α (NV - TP) + β (NV - TP) + 1)`, and the loss is the mean over `b`
  of `(1 - tversky) ^ γ`.

  The kernel gets the labelled class's numerator as a one-hot sum over the classes, accumulates `TP` and `NV` tile
  by tile over a grid of 8 batch elements × 8 tiles of 64 rows, and clamps `1 - tversky` at zero before the power;
  the reference gathers the share along the class axis and sums over the flattened pixel index. Under the
  precondition (finite logits; every label 255 or a class number) the two are equal at the ideal values:
  the one-hot sum is the gathered class, ignored pixels contribute zero on both sides, the two arrangements of
  the sums agree, and `0 ≤ TP ≤ NV` makes the clamp the identity (Proof/Bridge.lean).
-/
import proofs.«426206_j21749714387529_3_alg».proof.Defs
import proofs.«426206_j21749714387529_3_alg».proof.Proof.Gen.Kernel
import proofs.«426206_j21749714387529_3_alg».proof.Proof.Gen.Kernel.Frame
import proofs.«426206_j21749714387529_3_alg».proof.Proof.Gen.KernelIdeal
import proofs.«426206_j21749714387529_3_alg».proof.Proof.Gen.KernelIdeal.Frame
import proofs.«426206_j21749714387529_3_alg».proof.Proof.Gen.ReferenceIdeal
import proofs.«426206_j21749714387529_3_alg».proof.Proof.Gen.Pre_finite_inputs
import proofs.«426206_j21749714387529_3_alg».proof.Proof.RefRunP
import proofs.«426206_j21749714387529_3_alg».proof.Proof.RefReadP
import proofs.«426206_j21749714387529_3_alg».proof.Proof.RefStages
import proofs.«426206_j21749714387529_3_alg».proof.Proof.Spec
import proofs.«426206_j21749714387529_3_alg».proof.Proof.Bridge
import proofs.«426206_j21749714387529_3_alg».proof.Proof.PreDecode
import proofs.«426206_j21749714387529_3_alg».proof.Proof.KTail
import proofs.«426206_j21749714387529_3_alg».proof.Proof.RefValue
import Idealize.ShloMosaic.Adequacy
import Idealize.ShloMosaic.Init

noncomputable section

namespace Cert.Proof

open Idealize.ShloMosaic Idealize.ShloMosaic.TcCoe Idealize.SL.Sem Cert.FocalTversky

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote nothing. -/
theorem preserves : Cert.preserves_Kernel_KernelIdeal := trivial

/-- Both idealized programs end at one extended real. -/
theorem algebraic : Cert.algebraic_KernelIdeal_ReferenceIdeal := by
  intro m ρ m' ρ' hpre hagree
  refine ⟨fun c => fun _ => loss clampZero
      (tpTiled (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (nvTiled (m ((c.tc : Thread Cert.KernelIdeal.nD Cert.KernelIdeal.τ).loc Cert.KernelIdeal.main_arg1))),
    Cert.KernelIdeal.Hand.kernel_run m ρ, ?_⟩
  refine (θ_run Cert.ReferenceIdeal.defs _ _).mono (fun _ h c => ⟨(h c).1.trans ?_, (h c).2⟩)
    (Cert.ReferenceIdeal.Stages.run (F := Ideal) m' ρ')
  obtain ⟨hfin, hlab⟩ := pre_decode _ _ (hpre c)
  rw [(hagree c).1, (hagree c).2, Cert.ReferenceIdeal.Hand.ref_value _ _ hlab]
  funext _
  exact (bridge _ _ hfin hlab).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
